-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x12 : Shape := ⟨2, ![512, 12]⟩
abbrev S512x2x12x4096 : Shape := ⟨4, ![512, 2, 12, 4096]⟩
abbrev S_ : Shape := ⟨0, ![]⟩

class Facts : Prop where
  bcast_S_S512x12 : S_.BroadcastsInDim S512x12 (![] : Fin 0 → Fin S512x12.rank)
  reducesTo_S512x12_S_d0_1 : S512x12.ReducesTo [0, 1] S_
  h_S_ : 0 < S_.numel
  bcast_S_S512x2x12x4096 : S_.BroadcastsInDim S512x2x12x4096 (![] : Fin 0 → Fin S512x2x12x4096.rank)
  reducesTo_S512x2x12x4096_S_d0_1_2_3 : S512x2x12x4096.ReducesTo [0, 1, 2, 3] S_

variable [Facts]

def fn {F : FTy → Type} [FloatOps F] (main_arg0 : FVec F S512x12 .f32) (main_arg1 : IVec S512x12 32) (main_arg2 : FVec F S512x2x12x4096 .f32) : IVec S_ 1 :=
  let main_v0 : FVec F S512x12 .f32 := Host.absf main_arg0
  let main_cst : FVec F S_ .f32 := constant S_ .f32 0x7F800000#32
  let main_v1 : FVec F S512x12 .f32 := broadcastInDim S512x12 ![] bcast_S_S512x12 main_cst
  let main_v2 : IVec S512x12 1 := cmpf .olt main_v0 main_v1
  let main_c : IVec S_ 1 := constantI S_ 1 1#1
  let main_v3 : IVec S_ 1 := (fun x v => Host.reduce IntOp.andi x v reducesTo_S512x12_S_d0_1 h_S_) main_v2 main_c
  let main_v4 : FVec F S512x2x12x4096 .f32 := Host.absf main_arg2
  let main_cst_0 : FVec F S_ .f32 := constant S_ .f32 0x7F800000#32
  let main_v5 : FVec F S512x2x12x4096 .f32 := broadcastInDim S512x2x12x4096 ![] bcast_S_S512x2x12x4096 main_cst_0
  let main_v6 : IVec S512x2x12x4096 1 := cmpf .olt main_v4 main_v5
  let main_c_1 : IVec S_ 1 := constantI S_ 1 1#1
  let main_v7 : IVec S_ 1 := (fun x v => Host.reduce IntOp.andi x v reducesTo_S512x2x12x4096_S_d0_1_2_3 h_S_) main_v6 main_c_1
  let main_v8 : IVec S_ 1 := andi main_v3 main_v7
  main_v8
-- ==== Kernel.lean ====
abbrev S512x12 : Shape := ⟨2, ![512, 12]⟩
abbrev S512x2x12x4096 : Shape := ⟨4, ![512, 2, 12, 4096]⟩
abbrev S1x24x24 : Shape := ⟨3, ![1, 24, 24]⟩
abbrev S512x24x4096 : Shape := ⟨3, ![512, 24, 4096]⟩
abbrev S1x1 : Shape := ⟨2, ![1, 1]⟩
abbrev S16x24x4096 : Shape := ⟨3, ![16, 24, 4096]⟩
abbrev S16x24 : Shape := ⟨2, ![16, 24]⟩
abbrev S16x24x1 : Shape := ⟨3, ![16, 24, 1]⟩
abbrev S16x24x24 : Shape := ⟨3, ![16, 24, 24]⟩
abbrev S1x24 : Shape := ⟨2, ![1, 24]⟩
abbrev S16 : Shape := ⟨1, ![16]⟩
abbrev S16x1 : Shape := ⟨2, ![16, 1]⟩
abbrev S1 : Shape := ⟨1, ![1]⟩
abbrev S_ : Shape := ⟨0, ![]⟩

abbrev nBuf : Space → Nat
  | .hbm => 10
  | .vmem => 5
  | .smem => 0
  | _ => 0

abbrev bufTy : (tb : Table) → Fin (tcTables nBuf tb) → BufTy
  | .hbm, ⟨0, _⟩ => ⟨S512x12, .f32⟩
  | .hbm, ⟨1, _⟩ => ⟨S512x12, .i32⟩
  | .hbm, ⟨2, _⟩ => ⟨S512x2x12x4096, .f32⟩
  | .hbm, ⟨3, _⟩ => ⟨S1x24x24, .f32⟩
  | .hbm, ⟨4, _⟩ => ⟨S1x24x24, .f32⟩
  | .hbm, ⟨5, _⟩ => ⟨S512x24x4096, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S16x24x4096, .f32⟩
  | .local _ .vmem, ⟨1, _⟩ => ⟨S16x24x4096, .f32⟩
  | .local _ .vmem, ⟨2, _⟩ => ⟨S1x24x24, .f32⟩
  | .local _ .vmem, ⟨3, _⟩ => ⟨S1x24x24, .f32⟩
  | .local _ .vmem, ⟨4, _⟩ => ⟨S1x1, .f32⟩
  | _, _ => ⟨S512x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x24x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x24x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x24x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S512x2x12x4096_S512x24x4096 : S512x2x12x4096.ShapeCasts S512x24x4096
  inb_S1x1_S1x1_0_0 : ∀ a, (![0, 0] : Fin 2 → Nat) a + S1x1.size a ≤ S1x1.size a
  h_S1x1 : 0 < S1x1.numel
  inb_S16x24x4096_S16x24x4096_0_0_0 : ∀ a, (![0, 0, 0] : Fin 3 → Nat) a + S16x24x4096.size a ≤ S16x24x4096.size a
  h_S16x24x4096 : 0 < S16x24x4096.numel
  shapeCasts_S16x24x4096_S16x24x4096 : S16x24x4096.ShapeCasts S16x24x4096
  reduces_S16x24x4096_S16x24 : S16x24x4096.Reduces [2] S16x24
  shapeCasts_S16x24_S16x24x1 : S16x24.ShapeCasts S16x24x1
  broadcasts_S16x24x1_S16x24x4096 : S16x24x1.Broadcasts S16x24x4096
  bitsLt_bf16_f32 : FTy.bits .bf16 < FTy.bits .f32
  inb_S1x24x24_S1x24x24_0_0_0 : ∀ a, (![0, 0, 0] : Fin 3 → Nat) a + S1x24x24.size a ≤ S1x24x24.size a
  h_S1x24x24 : 0 < S1x24x24.numel
  broadcasts_S1x24x24_S16x24x24 : S1x24x24.Broadcasts S16x24x24
  reduces_S16x24x24_S16x24 : S16x24x24.Reduces [2] S16x24
  broadcasts_S16x24x1_S16x24x24 : S16x24x1.Broadcasts S16x24x24
  reduces_S1x24x24_S1x24 : S1x24x24.Reduces [2] S1x24
  broadcasts_S1x24_S16x24 : S1x24.Broadcasts S16x24
  reduces_S16x24_S16 : S16x24.Reduces [1] S16
  shapeCasts_S16_S16x1 : S16.ShapeCasts S16x1
  reduces_S16x1_S1 : S16x1.Reduces [0] S1
  shapeCasts_S1_S1x1 : S1.ShapeCasts S1x1
  shapeCasts_S1x1_S1x1 : S1x1.ShapeCasts S1x1
  shapeCasts_S1x1_S_ : S1x1.ShapeCasts S_
  dot_S16x24x4096_S16x24x4096_S16x24x24_2_2_1_1_0_0_wf : DotDims.WF S16x24x4096 S16x24x4096 S16x24x24 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x24x4096.size a ≤ S512x24x4096.size a
  hwx0_0 : ∀ i : grid0.Coords, EltTy.bits .f32 = 32 ∨ (Rect.block (s := S512x24x4096) S16x24x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x24x24.size a ≤ S1x24x24.size a
  hwx0_1 : ∀ i : grid0.Coords, EltTy.bits .f32 = 32 ∨ (Rect.block (s := S1x24x24) S1x24x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x24x24.size a ≤ S1x24x24.size a
  hwx0_2 : ∀ i : grid0.Coords, EltTy.bits .f32 = 32 ∨ (Rect.block (s := S1x24x24) S1x24x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S16x24x4096_S16x24x4096_S16x24x24_2_2_1_1_0_0 : DotDims S16x24x4096 S16x24x4096 S16x24x24 where
  lhsContracting := [2]
  rhsContracting := [2]
  lhsNonContracting := [1]
  rhsNonContracting := [1]
  lhsBatch := [0]
  rhsBatch := [0]
  wf := dot_S16x24x4096_S16x24x4096_S16x24x24_2_2_1_1_0_0_wf

abbrev win0_0 : Pipeline.Window sig grid0 :=
  Pipeline.Window.ofSpec (Memref.whole main_v0) S16x24x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S1x24x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S1x24x24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x12 : Shape := ⟨2, ![512, 12]⟩
abbrev S512x2x12x4096 : Shape := ⟨4, ![512, 2, 12, 4096]⟩
abbrev S512x24x4096 : Shape := ⟨3, ![512, 24, 4096]⟩
abbrev S_ : Shape := ⟨0, ![]⟩
abbrev S512x24 : Shape := ⟨2, ![512, 24]⟩
abbrev S512x24x1 : Shape := ⟨3, ![512, 24, 1]⟩
abbrev S512x24x24 : Shape := ⟨3, ![512, 24, 24]⟩
abbrev S24x24 : Shape := ⟨2, ![24, 24]⟩
abbrev S12 : Shape := ⟨1, ![12]⟩
abbrev S12x1 : Shape := ⟨2, ![12, 1]⟩
abbrev S1x12 : Shape := ⟨2, ![1, 12]⟩
abbrev S12x12 : Shape := ⟨2, ![12, 12]⟩
abbrev S1x12x1x12 : Shape := ⟨4, ![1, 12, 1, 12]⟩
abbrev S2x12x2x12 : Shape := ⟨4, ![2, 12, 2, 12]⟩
abbrev S1x24x24 : Shape := ⟨3, ![1, 24, 24]⟩
abbrev S24 : Shape := ⟨1, ![24]⟩
abbrev S1x24 : Shape := ⟨2, ![1, 24]⟩
abbrev S512 : Shape := ⟨1, ![512]⟩

abbrev nBuf : Space → Nat
  | .hbm => 81
  | .vmem => 0
  | .smem => 0
  | _ => 0

abbrev bufTy : (tb : Table) → Fin (tcTables nBuf tb) → BufTy
  | .hbm, ⟨0, _⟩ => ⟨S512x12, .f32⟩
  | .hbm, ⟨1, _⟩ => ⟨S512x12, .i32⟩
  | .hbm, ⟨2, _⟩ => ⟨S512x2x12x4096, .f32⟩
  | .hbm, ⟨3, _⟩ => ⟨S512x24x4096, .f32⟩
  | .hbm, ⟨4, _⟩ => ⟨S512x24x4096, .f32⟩
  | .hbm, ⟨5, _⟩ => ⟨S_, .f32⟩
  | .hbm, ⟨6, _⟩ => ⟨S512x24, .f32⟩
  | .hbm, ⟨7, _⟩ => ⟨S512x24x1, .f32⟩
  | .hbm, ⟨8, _⟩ => ⟨S512x24x1, .f32⟩
  | .hbm, ⟨9, _⟩ => ⟨S_, .f32⟩
  | .hbm, ⟨10, _⟩ => ⟨S_, .f32⟩
  | .hbm, ⟨11, _⟩ => ⟨S512x24x1, .f32⟩
  | .hbm, ⟨12, _⟩ => ⟨S512x24x1, .f32⟩
  | .hbm, ⟨13, _⟩ => ⟨S512x24x4096, .f32⟩
  | .hbm, ⟨14, _⟩ => ⟨S512x24x4096, .f32⟩
  | .hbm, ⟨15, _⟩ => ⟨S512x24x24, .f32⟩
  | .hbm, ⟨16, _⟩ => ⟨S_, .f32⟩
  | .hbm, ⟨17, _⟩ => ⟨S512x24x24, .f32⟩
  | .hbm, ⟨18, _⟩ => ⟨S512x24x24, .f32⟩
  | .hbm, ⟨19, _⟩ => ⟨S24x24, .i32⟩
  | .hbm, ⟨20, _⟩ => ⟨S24x24, .i32⟩
  | .hbm, ⟨21, _⟩ => ⟨S_, .i32⟩
  | .hbm, ⟨22, _⟩ => ⟨S24x24, .i32⟩
  | .hbm, ⟨23, _⟩ => ⟨S24x24, .i32⟩
  | .hbm, ⟨24, _⟩ => ⟨S24x24, .i1⟩
  | .hbm, ⟨25, _⟩ => ⟨S24x24, .f32⟩
  | .hbm, ⟨26, _⟩ => ⟨S_, .f32⟩
  | .hbm, ⟨27, _⟩ => ⟨S24x24, .f32⟩
  | .hbm, ⟨28, _⟩ => ⟨S24x24, .f32⟩
  | .hbm, ⟨29, _⟩ => ⟨S12, .i32⟩
  | .hbm, ⟨30, _⟩ => ⟨S12x1, .i32⟩
  | .hbm, ⟨31, _⟩ => ⟨S1x12, .i32⟩
  | .hbm, ⟨32, _⟩ => ⟨S12x12, .i32⟩
  | .hbm, ⟨33, _⟩ => ⟨S12x12, .i32⟩
  | .hbm, ⟨34, _⟩ => ⟨S12x12, .i32⟩
  | .hbm, ⟨35, _⟩ => ⟨S12x12, .i32⟩
  | .hbm, ⟨36, _⟩ => ⟨S_, .i32⟩
  | .hbm, ⟨37, _⟩ => ⟨S12x12, .i32⟩
  | .hbm, ⟨38, _⟩ => ⟨S12x12, .i1⟩
  | .hbm, ⟨39, _⟩ => ⟨S12x12, .f32⟩
  | .hbm, ⟨40, _⟩ => ⟨S1x12x1x12, .f32⟩
  | .hbm, ⟨41, _⟩ => ⟨S2x12x2x12, .f32⟩
  | .hbm, ⟨42, _⟩ => ⟨S24x24, .f32⟩
  | .hbm, ⟨43, _⟩ => ⟨S24x24, .f32⟩
  | .hbm, ⟨44, _⟩ => ⟨S512x24x24, .f32⟩
  | .hbm, ⟨45, _⟩ => ⟨S1x24x24, .f32⟩
  | .hbm, ⟨46, _⟩ => ⟨S512x24x24, .f32⟩
  | .hbm, ⟨47, _⟩ => ⟨S512x24x24, .f32⟩
  | .hbm, ⟨48, _⟩ => ⟨S_, .f32⟩
  | .hbm, ⟨49, _⟩ => ⟨S512x24, .f32⟩
  | .hbm, ⟨50, _⟩ => ⟨S512x24x1, .f32⟩
  | .hbm, ⟨51, _⟩ => ⟨S512x24x1, .f32⟩
  | .hbm, ⟨52, _⟩ => ⟨S512x24x24, .f32⟩
  | .hbm, ⟨53, _⟩ => ⟨S512x24x24, .f32⟩
  | .hbm, ⟨54, _⟩ => ⟨S1x24x24, .f32⟩
  | .hbm, ⟨55, _⟩ => ⟨S512x24x24, .f32⟩
  | .hbm, ⟨56, _⟩ => ⟨S512x24x24, .f32⟩
  | .hbm, ⟨57, _⟩ => ⟨S_, .f32⟩
  | .hbm, ⟨58, _⟩ => ⟨S512x24, .f32⟩
  | .hbm, ⟨59, _⟩ => ⟨S_, .f32⟩
  | .hbm, ⟨60, _⟩ => ⟨S24, .f32⟩
  | .hbm, ⟨61, _⟩ => ⟨S_, .f32⟩
  | .hbm, ⟨62, _⟩ => ⟨S24, .f32⟩
  | .hbm, ⟨63, _⟩ => ⟨S24, .f32⟩
  | .hbm, ⟨64, _⟩ => ⟨S1x24, .f32⟩
  | .hbm, ⟨65, _⟩ => ⟨S512x24, .f32⟩
  | .hbm, ⟨66, _⟩ => ⟨S512x24, .f32⟩
  | .hbm, ⟨67, _⟩ => ⟨S_, .f32⟩
  | .hbm, ⟨68, _⟩ => ⟨S512x24, .f32⟩
  | .hbm, ⟨69, _⟩ => ⟨S512x24, .f32⟩
  | .hbm, ⟨70, _⟩ => ⟨S_, .f32⟩
  | .hbm, ⟨71, _⟩ => ⟨S512, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S512x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  shapeCasts_S512x2x12x4096_S512x24x4096 : S512x2x12x4096.ShapeCasts S512x24x4096
  reducesTo_S512x24x4096_S512x24_d2 : S512x24x4096.ReducesTo [2] S512x24
  h_S_ : 0 < S_.numel
  bcast_S512x24_S512x24x1_0_1 : S512x24.BroadcastsInDim S512x24x1 (![0, 1] : Fin 2 → Fin S512x24x1.rank)
  bcast_S_S512x24x1 : S_.BroadcastsInDim S512x24x1 (![] : Fin 0 → Fin S512x24x1.rank)
  bcast_S512x24x1_S512x24x4096_0_1_2 : S512x24x1.BroadcastsInDim S512x24x4096 (![0, 1, 2] : Fin 3 → Fin S512x24x4096.rank)
  bcast_S_S512x24x24 : S_.BroadcastsInDim S512x24x24 (![] : Fin 0 → Fin S512x24x24.rank)
  bcast_S_S24x24 : S_.BroadcastsInDim S24x24 (![] : Fin 0 → Fin S24x24.rank)
  bcast_S12_S12x1_0 : S12.BroadcastsInDim S12x1 (![0] : Fin 1 → Fin S12x1.rank)
  bcast_S12_S1x12_1 : S12.BroadcastsInDim S1x12 (![1] : Fin 1 → Fin S1x12.rank)
  bcast_S12x1_S12x12_0_1 : S12x1.BroadcastsInDim S12x12 (![0, 1] : Fin 2 → Fin S12x12.rank)
  bcast_S1x12_S12x12_0_1 : S1x12.BroadcastsInDim S12x12 (![0, 1] : Fin 2 → Fin S12x12.rank)
  bcast_S_S12x12 : S_.BroadcastsInDim S12x12 (![] : Fin 0 → Fin S12x12.rank)
  shapeCasts_S12x12_S1x12x1x12 : S12x12.ShapeCasts S1x12x1x12
  bcast_S1x12x1x12_S2x12x2x12_0_1_2_3 : S1x12x1x12.BroadcastsInDim S2x12x2x12 (![0, 1, 2, 3] : Fin 4 → Fin S2x12x2x12.rank)
  shapeCasts_S2x12x2x12_S24x24 : S2x12x2x12.ShapeCasts S24x24
  bcast_S24x24_S1x24x24_1_2 : S24x24.BroadcastsInDim S1x24x24 (![1, 2] : Fin 2 → Fin S1x24x24.rank)
  bcast_S1x24x24_S512x24x24_0_1_2 : S1x24x24.BroadcastsInDim S512x24x24 (![0, 1, 2] : Fin 3 → Fin S512x24x24.rank)
  reducesTo_S512x24x24_S512x24_d2 : S512x24x24.ReducesTo [2] S512x24
  bcast_S512x24x1_S512x24x24_0_1_2 : S512x24x1.BroadcastsInDim S512x24x24 (![0, 1, 2] : Fin 3 → Fin S512x24x24.rank)
  reducesTo_S24x24_S24_d1 : S24x24.ReducesTo [1] S24
  bcast_S_S24 : S_.BroadcastsInDim S24 (![] : Fin 0 → Fin S24.rank)
  bcast_S24_S1x24_1 : S24.BroadcastsInDim S1x24 (![1] : Fin 1 → Fin S1x24.rank)
  bcast_S1x24_S512x24_0_1 : S1x24.BroadcastsInDim S512x24 (![0, 1] : Fin 2 → Fin S512x24.rank)
  bcast_S_S512x24 : S_.BroadcastsInDim S512x24 (![] : Fin 0 → Fin S512x24.rank)
  reducesTo_S512x24_S512_d1 : S512x24.ReducesTo [1] S512
  bcast_S_S512 : S_.BroadcastsInDim S512 (![] : Fin 0 → Fin S512.rank)
  reducesTo_S512_S_d0 : S512.ReducesTo [0] S_
  dot_S512x24x4096_S512x24x4096_S512x24x24_2_2_1_1_0_0_wf : DotDims.WF S512x24x4096 S512x24x4096 S512x24x24 [2] [2] [1] [1] [0] [0]

variable [Facts₀]

def dot_S512x24x4096_S512x24x4096_S512x24x24_2_2_1_1_0_0 : DotDims S512x24x4096 S512x24x4096 S512x24x24 where
  lhsContracting := [2]
  rhsContracting := [2]
  lhsNonContracting := [1]
  rhsNonContracting := [1]
  lhsBatch := [0]
  rhsBatch := [0]
  wf := dot_S512x24x4096_S512x24x4096_S512x24x24_2_2_1_1_0_0_wf

class Facts : Prop extends Facts₀ where

variable [Facts]
-- ==== Proof.Spec.lean ====
/-
  The loss both programs compute, written once over plain index types.

  One sample is 24 rows (2 views × 12 classes) of 4096 features.  Each row is divided by its Euclidean norm (floored at a
  small constant); the 24 × 24 table of inner products of the unit rows, times the inverse temperature, is the table of
  logits.  Row `m`'s log-probabilities are its logits minus the logarithm of the sum, over the other rows `n ≠ m`
  (`selfMask`), of the exponentials of its logits.  `posMean m` averages row `m`'s log-probabilities over its positive
  partners (`posMask`: another row whose class index differs by at most one), the count of partners floored away from
  zero by a small constant.  The sample's loss is minus the temperature times the mean of `posMean` over the 24 rows;
  the batch loss is the mean over the 512 samples.

  The two programs differ in where the constant factors stand and in how the 512 samples are grouped (32 groups of 16,
  `groupedLoss`, against one sum of 512, `flatLoss`): over the extended reals moving a factor across a sum is sound only
  where the summands are real.
-/
import Idealize.ShloMosaic.PureOps.Ideal
import Idealize.ShloMosaic.PureOps.Ideal.Laws
import Idealize.ShloMosaic.Lib.ValueIdx

noncomputable section

namespace Cert.Contrast

open Idealize.ShloMosaic

/-- The floor of a row's norm (the word both programs spell, about 1e-12). -/
abbrev epsNorm : EReal := Ideal.ofBits .f32 0x2B8CBCCC#32
/-- The floor added to a row's count of positive partners (about 1e-6). -/
abbrev epsPos : EReal := Ideal.ofBits .f32 0x358637BD#32
/-- Minus the temperature (the word both programs spell, about -0.1). -/
abbrev negTemp : EReal := Ideal.ofBits .f32 0xBDCCCCCD#32
/-- The number of rows of a sample, 24, as both programs spell it. -/
abbrev rowsWord : EReal := Ideal.ofBits .f32 0x41C00000#32
/-- The inverse temperature: the reciprocal of the temperature word. -/
abbrev invTemp : EReal := ((134217728 / 13421773 : ℝ) : EReal)

/-- Row `m` is compared with every row but itself. -/
def selfMask (m n : Fin 24) : EReal := if m = n then 0 else 1

/-- Rows `m ≠ n` are positive partners when their class indices (the row index modulo 12) differ by at most one. -/
def posMask (m n : Fin 24) : EReal :=
  if m ≠ n ∧ m.val % 12 ≤ n.val % 12 + 1 ∧ n.val % 12 ≤ m.val % 12 + 1 then 1 else 0

section sample

variable (lm pm : Fin 24 → Fin 24 → EReal) (x : Fin 24 → Fin 4096 → EReal)

/-- The norm of row `m`, floored. -/
def rowNorm (m : Fin 24) : EReal := max (Ideal.sqrt (∑ d, x m d * x m d)) epsNorm
/-- Row `m` scaled to unit length. -/
def unitRow (m : Fin 24) (d : Fin 4096) : EReal := Ideal.div (x m d) (rowNorm x m)
/-- The cosine of rows `m` and `n` over the temperature. -/
def logit (m n : Fin 24) : EReal := (∑ d, unitRow x m d * unitRow x n d) * invTemp
/-- The masked sum of exponentials of row `m`'s logits. -/
def denom (m : Fin 24) : EReal := ∑ n, Ideal.exp (logit x m n) * lm m n
/-- The log-probability of `n` for anchor `m`. -/
def logProb (m n : Fin 24) : EReal := logit x m n - Ideal.log (denom lm x m)
/-- The mean log-probability of anchor `m`'s positive partners. -/
def posMean (m : Fin 24) : EReal :=
  Ideal.div (∑ n, pm m n * logProb lm x m n) ((∑ n, pm m n) + epsPos)

end sample

/-- Sample `16 t + i` of the batch: the `i`-th of group `t`. -/
def groupRow (t : Fin 32) (i : Fin 16) : Fin 512 := ⟨16 * t.val + i.val, by have := t.isLt; have := i.isLt; omega⟩

theorem selfMask_cases (m n : Fin 24) : selfMask m n = 0 ∨ selfMask m n = 1 := by
  unfold selfMask; split <;> simp
theorem posMask_cases (m n : Fin 24) : posMask m n = 0 ∨ posMask m n = 1 := by
  unfold posMask; split <;> simp
/-- Every row has another row to be compared with. -/
theorem selfMask_has_one (m : Fin 24) : ∃ n, selfMask m n = 1 := by
  by_cases h : m = 0
  · exact ⟨1, by subst h; simp [selfMask]⟩
  · exact ⟨0, by simp [selfMask, h]⟩

/-- The rows of sample `b` in the features array `[512, 2, 12, 4096]`: row `m` is view `m / 12`, class `m % 12`. -/
def sampleRows (X : (⟨4, ![512, 2, 12, 4096]⟩ : Shape).Idx → EReal) (b : Fin 512) (m : Fin 24) (d : Fin 4096) : EReal :=
  X (ValueIdx.ix4 b (⟨m.val / 12, by have := m.isLt; omega⟩ : Fin 2) (⟨m.val % 12, Nat.mod_lt _ (by decide)⟩ : Fin 12) d)

/-- The batch loss in the grouped form: each sample's rows summed, divided by their number and scaled by minus the
    temperature; the samples summed in 32 groups of 16; the total scaled by the word for 1/512. -/
def groupedLoss (q : Fin 512 → Fin 24 → EReal) : EReal :=
  Ideal.ofBits .f32 0x3B000000#32
    * (∑ t : Fin 32, ∑ i : Fin 16, negTemp * Ideal.div (∑ m, q (groupRow t i) m) rowsWord)

/-- The batch loss in the flat form: each row scaled first, then summed from zero and divided; the 512 samples summed at
    once from zero; the total times the word for one, divided by the word for 512. -/
def flatLoss (q : Fin 512 → Fin 24 → EReal) : EReal :=
  Ideal.div (Ideal.ofBits .f32 0x3F800000#32
      * (Ideal.ofBits .f32 0x00000000#32
          + ∑ b : Fin 512, Ideal.div (Ideal.ofBits .f32 0x00000000#32 + ∑ m, negTemp * q b m) rowsWord))
    (Ideal.ofBits .f32 0x44000000#32)

end Cert.Contrast

end
-- ==== Proof.SpecReal.lean ====
import proofs.«161356_j89678917140919_1_alg».proof.Proof.Spec

noncomputable section

namespace Cert.Contrast

open Idealize.ShloMosaic

/-- The embedding of the reals commutes with finite sums. -/
private theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The embedding of the reals commutes with the maximum of two numbers. -/
private theorem coe_max (a b : ℝ) : max (a : EReal) (b : EReal) = ((max a b : ℝ) : EReal) :=
  (EReal.coe_strictMono.monotone.map_max).symm

/-- The floor of the norm is a positive real. -/
private theorem epsNorm_eq : epsNorm = ((2305843 / 2305843009213693952 : ℝ) : EReal) := by
  simp [epsNorm, Ideal.ofBits, Ideal.ieee, -EReal.coe_mul]; norm_num

/-- The floor of the count is a positive real. -/
private theorem epsPos_eq : epsPos = ((8796093 / 8796093022208 : ℝ) : EReal) := by
  simp [epsPos, Ideal.ofBits, Ideal.ieee, -EReal.coe_mul]; norm_num

/-- A mask entry that is zero or one is a real number between zero and one. -/
private theorem mask_real (a : EReal) (h : a = 0 ∨ a = 1) :
    ∃ r : ℝ, 0 ≤ r ∧ a = (r : EReal) ∧ (a = 1 → r = 1) := by
  rcases h with h | h
  · exact ⟨0, le_rfl, by simp [h], fun h1 => by rw [h] at h1; exact absurd h1 (by norm_num)⟩
  · exact ⟨1, zero_le_one, by simp [h], fun _ => rfl⟩

section real

variable (xr : Fin 24 → Fin 4096 → ℝ)

/-- The floored norm of a real row is a positive real. -/
private theorem rowNorm_pos (m : Fin 24) :
    ∃ n : ℝ, 0 < n ∧ rowNorm (fun m d => ((xr m d : ℝ) : EReal)) m = (n : EReal) := by
  have h1 : ∑ d, ((xr m d : ℝ) : EReal) * ((xr m d : ℝ) : EReal) = ((∑ d, xr m d * xr m d : ℝ) : EReal) := by
    rw [← coe_sum]; simp [EReal.coe_mul]
  have h0 : ¬ (∑ d, xr m d * xr m d) < 0 := not_lt.mpr (Finset.sum_nonneg fun d _ => mul_self_nonneg _)
  refine ⟨max (Real.sqrt (∑ d, xr m d * xr m d)) (2305843 / 2305843009213693952), lt_max_of_lt_right (by norm_num), ?_⟩
  unfold rowNorm
  rw [h1, Ideal.sqrt_coe, if_neg h0, epsNorm_eq, coe_max]

/-- The logits of real rows are real. -/
private theorem logit_real (m n : Fin 24) :
    ∃ r : ℝ, logit (fun m d => ((xr m d : ℝ) : EReal)) m n = (r : EReal) := by
  obtain ⟨a, ha, hma⟩ := rowNorm_pos xr m
  obtain ⟨b, hb, hnb⟩ := rowNorm_pos xr n
  refine ⟨(∑ d, (xr m d * (1 / a)) * (xr n d * (1 / b))) * (134217728 / 13421773), ?_⟩
  have hs : ∑ d, unitRow (fun m d => ((xr m d : ℝ) : EReal)) m d * unitRow (fun m d => ((xr m d : ℝ) : EReal)) n d
      = ((∑ d, (xr m d * (1 / a)) * (xr n d * (1 / b)) : ℝ) : EReal) := by
    rw [← coe_sum]
    refine Finset.sum_congr rfl fun d _ => ?_
    unfold unitRow
    rw [hma, hnb, Ideal.div_coe ha.ne', Ideal.div_coe hb.ne', EReal.coe_mul, EReal.coe_mul, EReal.coe_mul]
  unfold logit invTemp
  rw [hs, EReal.coe_mul]

end real

/-- On real features, with masks of zeros and ones of which the first has a one in every row, every mean log-probability
    is a real number: the floored norm is a positive real, so the unit rows and the logits are real, the exponentials are
    positive reals, the masked sum keeps at least one of them, its logarithm is real, and the floored count is a positive
    real. -/
theorem posMean_real (lm pm : Fin 24 → Fin 24 → EReal) (x : Fin 24 → Fin 4096 → EReal)
    (hl : ∀ m n, lm m n = 0 ∨ lm m n = 1) (hl1 : ∀ m, ∃ n, lm m n = 1) (hp : ∀ m n, pm m n = 0 ∨ pm m n = 1)
    (hx : ∀ m d, ∃ r : ℝ, x m d = (r : EReal)) (m : Fin 24) :
    ∃ r : ℝ, posMean lm pm x m = (r : EReal) := by
  choose xr hxr using hx
  obtain rfl : x = fun m d => ((xr m d : ℝ) : EReal) := by funext m d; exact hxr m d
  -- the logits of row m, the two masks' rows: real witnesses
  choose L hL using logit_real xr m
  choose lr hlr0 hlr hlr1 using fun n => mask_real (lm m n) (hl m n)
  choose pr hpr0 hpr _ using fun n => mask_real (pm m n) (hp m n)
  -- the masked sum of exponentials is a positive real
  have hD : denom lm (fun m d => ((xr m d : ℝ) : EReal)) m = ((∑ n, Real.exp (L n) * lr n : ℝ) : EReal) := by
    unfold denom
    rw [← coe_sum]
    refine Finset.sum_congr rfl fun n _ => ?_
    rw [hL n, hlr n, Ideal.exp_coe, EReal.coe_mul]
  have hDpos : 0 < ∑ n, Real.exp (L n) * lr n := by
    obtain ⟨n₀, hn₀⟩ := hl1 m
    refine Finset.sum_pos' (fun n _ => mul_nonneg (Real.exp_pos _).le (hlr0 n)) ⟨n₀, Finset.mem_univ _, ?_⟩
    rw [hlr1 n₀ hn₀, mul_one]; exact Real.exp_pos _
  -- the log-probabilities are real
  have hLP : ∀ n, logProb lm (fun m d => ((xr m d : ℝ) : EReal)) m n
      = ((L n - Real.log (∑ n, Real.exp (L n) * lr n) : ℝ) : EReal) := by
    intro n
    unfold logProb
    rw [hD, hL n, Ideal.log_coe, if_neg (not_le.mpr hDpos), EReal.coe_sub]
  -- the numerator is real
  have hN : ∑ n, pm m n * logProb lm (fun m d => ((xr m d : ℝ) : EReal)) m n
      = ((∑ n, pr n * (L n - Real.log (∑ n, Real.exp (L n) * lr n)) : ℝ) : EReal) := by
    rw [← coe_sum]
    refine Finset.sum_congr rfl fun n _ => ?_
    rw [hLP n, hpr n, EReal.coe_mul]
  -- the floored count is a positive real
  have hP : (∑ n, pm m n) + epsPos = (((∑ n, pr n) + 8796093 / 8796093022208 : ℝ) : EReal) := by
    have hs : ∑ n, pm m n = ((∑ n, pr n : ℝ) : EReal) := by
      rw [← coe_sum]; exact Finset.sum_congr rfl fun n _ => hpr n
    rw [hs, epsPos_eq, EReal.coe_add]
  have hPpos : (0 : ℝ) < (∑ n, pr n) + 8796093 / 8796093022208 :=
    add_pos_of_nonneg_of_pos (Finset.sum_nonneg fun n _ => hpr0 n) (by norm_num)
  refine ⟨(∑ n, pr n * (L n - Real.log (∑ n, Real.exp (L n) * lr n)))
      * (1 / ((∑ n, pr n) + 8796093 / 8796093022208)), ?_⟩
  unfold posMean
  rw [hN, hP, Ideal.div_coe hPpos.ne', EReal.coe_mul]

end Cert.Contrast

end
-- ==== Proof.SpecLaw.lean ====
import proofs.«161356_j89678917140919_1_alg».proof.Proof.Spec

noncomputable section

namespace Cert.Contrast

open Idealize.ShloMosaic

/-- The coercion of the reals into the extended reals commutes with a finite sum. -/
private theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Every sample index below 512 is `16 t + i` for exactly one group `t < 32` and one place `i < 16`. -/
private theorem groupRow_bijective : Function.Bijective (fun p : Fin 32 × Fin 16 => groupRow p.1 p.2) := by
  constructor
  · rintro ⟨t, i⟩ ⟨t', i'⟩ h
    have h' : 16 * t.val + i.val = 16 * t'.val + i'.val := by
      simpa [groupRow] using congrArg Fin.val h
    have ht := t.isLt; have hi := i.isLt; have ht' := t'.isLt; have hi' := i'.isLt
    have e1 : t.val = t'.val := by omega
    have e2 : i.val = i'.val := by omega
    exact Prod.ext (Fin.ext e1) (Fin.ext e2)
  · intro b
    refine ⟨(⟨b.val / 16, by have := b.isLt; omega⟩, ⟨b.val % 16, Nat.mod_lt _ (by decide)⟩), ?_⟩
    apply Fin.ext
    simp only [groupRow]
    omega

/-- A sum over the 512 samples is the sum over the 32 groups of the sums over the 16 places of a group. -/
private theorem sum_groupRow (f : Fin 512 → ℝ) : ∑ b, f b = ∑ t : Fin 32, ∑ i : Fin 16, f (groupRow t i) := by
  rw [← Fintype.sum_prod_type' (f := fun t i => f (groupRow t i))]
  exact (Fintype.sum_bijective _ groupRow_bijective _ _ (fun _ => rfl)).symm

/-- THE LAW.  With real per-row values `q b m` the grouped form and the flat form of the batch loss are the same number:
    over the reals a constant factor moves across a finite sum, a quotient by 24 is a product with 1/24, the 512 samples
    are the 32 groups of 16 (`b = 16 t + i`), and the word for 1/512 is the reciprocal of the word for 512. -/
theorem loss_eq (q : Fin 512 → Fin 24 → EReal) (hq : ∀ b m, ∃ r : ℝ, q b m = (r : EReal)) :
    groupedLoss q = flatLoss q := by
  choose qr hqr using hq
  have hqf : q = fun b m => ((qr b m : ℝ) : EReal) := by funext b m; exact hqr b m
  subst hqf
  -- the words, as real numbers
  have w512inv : Ideal.ofBits .f32 0x3B000000#32 = ((1 / 512 : ℝ) : EReal) := by
    simp [Ideal.ofBits, Ideal.ieee, -EReal.coe_mul]; norm_num
  have w512 : Ideal.ofBits .f32 0x44000000#32 = ((512 : ℝ) : EReal) := by
    simp [Ideal.ofBits, Ideal.ieee, -EReal.coe_mul]; norm_num
  have w1 : Ideal.ofBits .f32 0x3F800000#32 = ((1 : ℝ) : EReal) := by
    simp [Ideal.ofBits, Ideal.ieee, -EReal.coe_mul]; norm_num
  have w24 : rowsWord = ((24 : ℝ) : EReal) := by
    simp [Ideal.ofBits, Ideal.ieee, -EReal.coe_mul]; norm_num
  have wneg : negTemp = ((-(13421773 / 134217728) : ℝ) : EReal) := by
    simp [Ideal.ofBits, Ideal.ieee, -EReal.coe_mul]; norm_num
  have w0 : Ideal.ofBits .f32 0x00000000#32 = ((0 : ℝ) : EReal) := by
    rw [Ideal.ofBits_zero_f32, EReal.coe_zero]
  unfold groupedLoss flatLoss
  rw [w512inv, w512, w1, w24, wneg, w0]
  rw [Ideal.div_coe (by norm_num : (512 : ℝ) ≠ 0)]
  simp only [Ideal.div_coe (by norm_num : (24 : ℝ) ≠ 0)]
  -- both sides are now real: gather the coercion outside
  simp only [← coe_finset_sum, ← EReal.coe_mul, ← EReal.coe_add]
  rw [EReal.coe_eq_coe_iff]
  -- an identity between finite real sums
  rw [sum_groupRow (fun b => (0 + ∑ m, -(13421773 / 134217728) * qr b m) * (1 / 24))]
  rw [zero_add, one_mul, mul_comm]
  congr 1
  refine Finset.sum_congr rfl (fun t _ => Finset.sum_congr rfl (fun i _ => ?_))
  rw [zero_add, ← Finset.mul_sum]
  ring

end Cert.Contrast

end
-- ==== Proof.Finite.lean ====
import proofs.«161356_j89678917140919_1_alg».proof.Defs
import proofs.«161356_j89678917140919_1_alg».proof.Proof.Gen.Pre_finite_inputs
import Idealize.ShloMosaic.Lib.ReduceAll
import Idealize.ShloMosaic.Lib.ValueIdx

noncomputable section

namespace Cert.Finite

open Idealize.ShloMosaic Idealize.SL.Sem

/-- The rank-0 shape has exactly one index: the empty tuple. -/
private instance : Subsingleton Cert.Pre_finite_inputs.S_.Idx := ⟨fun a b => funext fun d => d.elim0⟩

/-- The f32 word `0x7F800000` (sign 0, exponent all ones, mantissa 0) is plus infinity. -/
private theorem ofBits_inf_f32 : Ideal.ofBits .f32 0x7F800000#32 = (⊤ : EReal) := by
  simp [Ideal.ofBits, Ideal.ieee]

/-- An ordered "less than" whose word is 1 is the strict order of the extended reals. -/
private theorem lt_of_cmp_olt {x y : EReal} (h : Ideal.cmp .olt x y = 1#1) : x < y := by
  unfold Ideal.cmp at h
  by_contra hn
  simp [hn] at h

/-- An extended real whose absolute value `max x (-x)` is below plus infinity is a real number:
    at either infinity the absolute value is plus infinity. -/
private theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- Under the precondition every entry of the features array is a real number. -/
theorem features_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S512x2x12x4096.Idx) :
    ∃ r : ℝ, m ((c.tc : Thread Cert.KernelIdeal.nD Cert.KernelIdeal.τ).loc Cert.KernelIdeal.main_arg2) i = (r : EReal) := by
  -- the predicate's single word is 1
  have h0 := congrFun (h c) ValueIdx.ix0
  dsimp only [Cert.Pre_finite_inputs.fn] at h0
  -- it is the conjunction of two "all" reductions; the second one speaks of the features array
  obtain ⟨-, h2⟩ := IntOp.andi_eq_one.1 h0
  -- an "all" that is 1 has a 1 at every index
  have h3 := Host.reduce_andi_all _ _ _ _ _ h2 i
  -- at index `i` the two words compared are `|x|` and the word of plus infinity
  let x : EReal := m ((c.tc : Thread Cert.KernelIdeal.nD Cert.KernelIdeal.τ).loc Cert.KernelIdeal.main_arg2) i
  have h4 : Ideal.cmp .olt (max x (-x)) (Ideal.ofBits .f32 0x7F800000#32) = 1#1 := h3
  rw [ofBits_inf_f32] at h4
  exact real_of_abs_lt_top x (lt_of_cmp_olt h4)

end Cert.Finite

end
-- ==== Proof.KPieces.lean ====
/-
  What the kernel body leaves in the one-element accumulator after a grid point, in each of its two control cases, as the
  value of its last store: the accumulator's previous contents (the reset value at the first point) plus the block's
  contribution.
-/
import proofs.«161356_j89678917140919_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F] [Named F]

theorem hz : (![0, 0] : Fin 2 → Nat) = fun _ => 0 := funext fun a => by fin_cases a <;> rfl
theorem hz3 : (![0, 0, 0] : Fin 3 → Nat) = fun _ => 0 := funext fun a => by fin_cases a <;> rfl

/-- The word for the number of rows that the body divides a sample's sum by. -/
abbrev rowsW : F .f32 := Scalar.ofBits .f32 0x41C00000#32

/-- At a point after the first the body leaves, in the accumulator's buffer that held `xo`, its one covering store: the
    stored value computed from the whole input blocks and from `xo` read back. -/
theorem out_later (c : Dev nD) (i : grid0.Coords) (a1 : Memref sig .tc .vmem S16x24x4096 .f32) (h1 : a1.IsWhole)
    (a2 : Memref sig .tc .vmem S1x24x24 .f32) (h2 : a2.IsWhole) (a3 : Memref sig .tc .vmem S1x24x24 .f32) (h3 : a3.IsWhole)
    (a4 : Memref sig .tc .vmem S1x1 .f32) (h4 : a4.IsWhole) (hc : ¬cond0_0 i)
    (x0 : Vec F S16x24x4096 .f32) (x1 x2 : Vec F S1x24x24 .f32) (xo : Vec F S1x1 .f32) :
    out0_B_3 c i a1 h1 a2 h2 a3 h3 a4 h4 hc x0 x1 x2 xo = k0_pay1 (k0_pay3 x0 x1 x2) (rowsW (F := F)) xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S16x24x4096) hz3, View.ld_unit_zero (S := S1x24x24) hz3, View.ld_unit_zero (S := S1x1) hz]

/-- At the first point the body first stores the reset value, reads it back, and leaves the same stored value computed
    over the reset value. -/
theorem out_first (c : Dev nD) (i : grid0.Coords) (a1 : Memref sig .tc .vmem S16x24x4096 .f32) (h1 : a1.IsWhole)
    (a2 : Memref sig .tc .vmem S1x24x24 .f32) (h2 : a2.IsWhole) (a3 : Memref sig .tc .vmem S1x24x24 .f32) (h3 : a3.IsWhole)
    (a4 : Memref sig .tc .vmem S1x1 .f32) (h4 : a4.IsWhole) (hc : cond0_0 i)
    (x0 : Vec F S16x24x4096 .f32) (x1 x2 : Vec F S1x24x24 .f32) :
    out0_A_3 c i a1 h1 a2 h2 a3 h3 a4 h4 hc x0 x1 x2 = k0_pay1 (k0_pay3 x0 x1 x2) (rowsW (F := F)) (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S16x24x4096) hz3, View.ld_unit_zero (S := S1x24x24) hz3, View.ld_unit_zero (S := S1x1) hz]

end Cert.KernelIdeal.Pieces

end
-- ==== Proof.KPayload.lean ====
import proofs.«161356_j89678917140919_1_alg».proof.Proof.Spec
import proofs.«161356_j89678917140919_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Contrast

/-! ## Layout operations and lane sums at explicit coordinates -/

section Layout
variable {α : Type}

/-- An `[a, b]` array cast to `[a, b, 1]` reads, at `(i, j, u)`, the operand at `(i, j)`. -/
private theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
private theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
private theorem bcast_ab1_abc {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
private theorem bcast_1bc_abc {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

section Sums
variable {φ : FTy}

/-- A sum over the last axis of an `[a, b, c]` array, read at `(i, j)`: the sum over `k` of the array at `(i, j, k)`. -/
private theorem red3_last {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction (F := Ideal) .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- A sum over the last axis of an `[a, b]` array, read at `i`: the sum over `k` of the array at `(i, k)`. -/
private theorem red2_last {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction (F := Ideal) .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- A sum over the first axis of an `[a, b]` array, read at `j`: the sum over `k` of the array at `(k, j)`. -/
private theorem red2_first {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction (F := Ideal) .add [0] ⟨1, ![b]⟩ src acc h hφ hacc (ix1 j) = ∑ k : Fin a, src (ix2 k j) := by
  refine (Ideal.multiReduction_add_single src acc h hφ hacc (ix1 j)).trans ?_
  refine Finset.sum_congr rfl fun k _ => congrArg src (funext fun ax => Fin.ext ?_)
  match ax with
  | ⟨0, _⟩ => rfl
  | ⟨1, _⟩ => rfl

end Sums

/-! ## The product of the unit rows at an index -/

section Dot

private theorem lhs_dot_0 (i : S16x24x24.Idx) (q : dot_S16x24x4096_S16x24x4096_S16x24x24_2_2_1_1_0_0.contr.Idx) :
    (dot_S16x24x4096_S16x24x4096_S16x24x24_2_2_1_1_0_0.lhsIdx i q 0).val = (i 0).val := by
  unfold DotDims.lhsIdx
  rw [dif_pos (show (0 : Fin S16x24x4096.rank) ∈ dot_S16x24x4096_S16x24x4096_S16x24x24_2_2_1_1_0_0.lhsBatch by decide)]
  rfl
private theorem lhs_dot_1 (i : S16x24x24.Idx) (q : dot_S16x24x4096_S16x24x4096_S16x24x24_2_2_1_1_0_0.contr.Idx) :
    (dot_S16x24x4096_S16x24x4096_S16x24x24_2_2_1_1_0_0.lhsIdx i q 1).val = (i 1).val := by
  unfold DotDims.lhsIdx
  rw [dif_neg (show ¬(1 : Fin S16x24x4096.rank) ∈ dot_S16x24x4096_S16x24x4096_S16x24x24_2_2_1_1_0_0.lhsBatch by decide),
    dif_pos (show (1 : Fin S16x24x4096.rank) ∈ dot_S16x24x4096_S16x24x4096_S16x24x24_2_2_1_1_0_0.lhsNonContracting by decide)]
  rfl
private theorem lhs_dot_2 (i : S16x24x24.Idx) (q : dot_S16x24x4096_S16x24x4096_S16x24x24_2_2_1_1_0_0.contr.Idx) :
    (dot_S16x24x4096_S16x24x4096_S16x24x24_2_2_1_1_0_0.lhsIdx i q 2).val = (q ⟨0, by decide⟩).val :=
  dot_S16x24x4096_S16x24x4096_S16x24x24_2_2_1_1_0_0.lhsIdx_val_of_single rfl i q
private theorem rhs_dot_0 (i : S16x24x24.Idx) (q : dot_S16x24x4096_S16x24x4096_S16x24x24_2_2_1_1_0_0.contr.Idx) :
    (dot_S16x24x4096_S16x24x4096_S16x24x24_2_2_1_1_0_0.rhsIdx i q 0).val = (i 0).val := by
  unfold DotDims.rhsIdx
  rw [dif_pos (show (0 : Fin S16x24x4096.rank) ∈ dot_S16x24x4096_S16x24x4096_S16x24x24_2_2_1_1_0_0.rhsBatch by decide)]
  rfl
private theorem rhs_dot_1 (i : S16x24x24.Idx) (q : dot_S16x24x4096_S16x24x4096_S16x24x24_2_2_1_1_0_0.contr.Idx) :
    (dot_S16x24x4096_S16x24x4096_S16x24x24_2_2_1_1_0_0.rhsIdx i q 1).val = (i 2).val := by
  unfold DotDims.rhsIdx
  rw [dif_neg (show ¬(1 : Fin S16x24x4096.rank) ∈ dot_S16x24x4096_S16x24x4096_S16x24x24_2_2_1_1_0_0.rhsBatch by decide),
    dif_pos (show (1 : Fin S16x24x4096.rank) ∈ dot_S16x24x4096_S16x24x4096_S16x24x24_2_2_1_1_0_0.rhsNonContracting by decide)]
  rfl
private theorem rhs_dot_2 (i : S16x24x24.Idx) (q : dot_S16x24x4096_S16x24x4096_S16x24x24_2_2_1_1_0_0.contr.Idx) :
    (dot_S16x24x4096_S16x24x4096_S16x24x24_2_2_1_1_0_0.rhsIdx i q 2).val = (q ⟨0, by decide⟩).val :=
  dot_S16x24x4096_S16x24x4096_S16x24x24_2_2_1_1_0_0.rhsIdx_val_of_single rfl i q

/-- The batched product of two `[16, 24, 4096]` arrays contracted over their last axis, into zero, read at `(b, m, n)`:
    the sum over `d` of the left array at `(b, m, d)` times the right at `(b, n, d)`. -/
private theorem dot_at {φ₁ φ₂ : FTy} (x : FVec Ideal S16x24x4096 φ₁) (y : FVec Ideal S16x24x4096 φ₂) (b : Fin 16) (m n : Fin 24) :
    matmul dot_S16x24x4096_S16x24x4096_S16x24x24_2_2_1_1_0_0 none x y (constant S16x24x24 .f32 0x00000000#32) (ix3 b m n)
      = ∑ d : Fin 4096, x (ix3 b m d) * y (ix3 b n d) := by
  refine (Ideal.matmul_constant_zero_apply _ _ x y (ix3 b m n)).trans ?_
  rw [← Equiv.sum_comp (contrEquiv1 dot_S16x24x4096_S16x24x4096_S16x24x24_2_2_1_1_0_0 4096 rfl rfl).symm]
  refine Finset.sum_congr rfl fun k _ => ?_
  have hk := contrEquiv1_symm_val dot_S16x24x4096_S16x24x4096_S16x24x24_2_2_1_1_0_0 4096 rfl rfl k
  have el : dot_S16x24x4096_S16x24x4096_S16x24x24_2_2_1_1_0_0.lhsIdx (ix3 b m n)
      ((contrEquiv1 dot_S16x24x4096_S16x24x4096_S16x24x24_2_2_1_1_0_0 4096 rfl rfl).symm k) = ix3 b m k :=
    funext fun a => Fin.ext (by
      match a with
      | ⟨0, _⟩ => exact lhs_dot_0 _ _
      | ⟨1, _⟩ => exact lhs_dot_1 _ _
      | ⟨2, _⟩ => exact (lhs_dot_2 _ _).trans hk)
  have er : dot_S16x24x4096_S16x24x4096_S16x24x24_2_2_1_1_0_0.rhsIdx (ix3 b m n)
      ((contrEquiv1 dot_S16x24x4096_S16x24x4096_S16x24x24_2_2_1_1_0_0 4096 rfl rfl).symm k) = ix3 b n k :=
    funext fun a => Fin.ext (by
      match a with
      | ⟨0, _⟩ => exact rhs_dot_0 _ _
      | ⟨1, _⟩ => exact rhs_dot_1 _ _
      | ⟨2, _⟩ => exact (rhs_dot_2 _ _).trans hk)
  rw [el, er]

end Dot

/-! ## The body's stages as terms, each read at an index -/

section Stages

/-- The named inverse temperature is the specification's. -/
private theorem invTemp_named :
    Named.named (F := Ideal) Cert.KernelIdeal.κ "inv_temperature" (φ := .f32) 0x41200000#32 = invTemp :=
  IdealRules.named_const.ideal_named_scalar _ _ _ _ rfl

/-- The floored norms of a block's rows, `[16, 24, 1]`. -/
private def normV (v : FVec Ideal S16x24x4096 .f32) : FVec Ideal S16x24x1 .f32 :=
  maximumf
    (sqrt (shapeCast S16x24x1
      (multiReduction .add [2] S16x24 (mulf v v) 0x00000000#32 reduces_S16x24x4096_S16x24 (.inl rfl) rfl)
      shapeCasts_S16x24_S16x24x1))
    (broadcast S16x24x1 (Scalar.ofBits .f32 0x2B8CBCCC#32))

/-- At `(b, m, ·)` it is the floored norm of row `m` of sample `b`. -/
private theorem normV_at (v : FVec Ideal S16x24x4096 .f32) (b : Fin 16) (m : Fin 24) (u : Fin 1) :
    normV v (ix3 b m u) = rowNorm (fun m d => v (ix3 b m d)) m := by
  unfold normV rowNorm
  refine (maximumf_apply _ _ _).trans ?_
  refine congrArg₂ max (congrArg Ideal.sqrt ?_) rfl
  refine (cast_ab_ab1 _ _ b m u).trans ?_
  exact red3_last _ _ _ _ _ b m

/-- The rows scaled to unit length, `[16, 24, 4096]`. -/
private def unitV (v : FVec Ideal S16x24x4096 .f32) : FVec Ideal S16x24x4096 .bf16 :=
  truncf .bf16 (divf v (broadcastTo S16x24x4096 (normV v) broadcasts_S16x24x1_S16x24x4096)) bitsLt_bf16_f32

/-- At `(b, m, d)` it is feature `d` of the unit row `m` of sample `b`. -/
private theorem unitV_at (v : FVec Ideal S16x24x4096 .f32) (b : Fin 16) (m : Fin 24) (d : Fin 4096) :
    unitV v (ix3 b m d) = unitRow (fun m d => v (ix3 b m d)) m d := by
  unfold unitV unitRow
  refine (truncf_apply (ψ := .bf16) _ bitsLt_bf16_f32 _).trans ((divf_apply _ _ _).trans ?_)
  refine congrArg (Ideal.div _) ?_
  exact (bcast_ab1_abc _ _ b m d).trans (normV_at v b m 0)

/-- The logits, `[16, 24, 24]`. -/
private def logitV (v : FVec Ideal S16x24x4096 .f32) : FVec Ideal S16x24x24 .f32 :=
  mulf (matmul dot_S16x24x4096_S16x24x4096_S16x24x24_2_2_1_1_0_0 none (unitV v) (unitV v)
      (constant S16x24x24 .f32 0x00000000#32))
    (broadcast S16x24x24 (Named.named Cert.KernelIdeal.κ "inv_temperature" 0x41200000#32))

/-- At `(b, m, n)` it is the logit of rows `m` and `n` of sample `b`. -/
private theorem logitV_at (v : FVec Ideal S16x24x4096 .f32) (b : Fin 16) (m n : Fin 24) :
    logitV v (ix3 b m n) = logit (fun m d => v (ix3 b m d)) m n := by
  unfold logitV logit
  refine (mulf_apply _ _ _).trans ?_
  refine congrArg₂ (· * ·) ?_ invTemp_named
  refine (dot_at _ _ b m n).trans ?_
  exact Finset.sum_congr rfl fun d _ => by rw [unitV_at, unitV_at]

/-- The logarithm of the masked sums of exponentials, `[16, 24, 1]`, from the logits and the `[1, 24, 24]` mask. -/
private def logDenV (L : FVec Ideal S16x24x24 .f32) (v17 : FVec Ideal S1x24x24 .f32) : FVec Ideal S16x24x1 .f32 :=
  log (shapeCast S16x24x1
    (multiReduction .add [2] S16x24 (mulf (exp L) (broadcastTo S16x24x24 v17 broadcasts_S1x24x24_S16x24x24))
      0x00000000#32 reduces_S16x24x24_S16x24 (.inl rfl) rfl)
    shapeCasts_S16x24_S16x24x1)

private theorem logDenV_at (L : FVec Ideal S16x24x24 .f32) (v17 : FVec Ideal S1x24x24 .f32) (b : Fin 16) (m : Fin 24)
    (u : Fin 1) :
    logDenV L v17 (ix3 b m u) = Ideal.log (∑ n : Fin 24, Ideal.exp (L (ix3 b m n)) * v17 (ix3 (0 : Fin 1) m n)) := by
  unfold logDenV
  refine congrArg Ideal.log ?_
  refine (cast_ab_ab1 _ _ b m u).trans ?_
  refine (red3_last _ _ _ _ _ b m).trans ?_
  refine Finset.sum_congr rfl fun n _ => ?_
  refine (mulf_apply _ _ _).trans ?_
  exact congrArg (Ideal.exp (L (ix3 b m n)) * ·) (bcast_1bc_abc _ _ b m n)

/-- The sums of the log-probabilities over the positive partners, `[16, 24]`. -/
private def numV (L : FVec Ideal S16x24x24 .f32) (v17 v18 : FVec Ideal S1x24x24 .f32) : FVec Ideal S16x24 .f32 :=
  multiReduction .add [2] S16x24
    (mulf (broadcastTo S16x24x24 v18 broadcasts_S1x24x24_S16x24x24)
      (subf L (broadcastTo S16x24x24 (logDenV L v17) broadcasts_S16x24x1_S16x24x24)))
    0x00000000#32 reduces_S16x24x24_S16x24 (.inl rfl) rfl

private theorem numV_at (L : FVec Ideal S16x24x24 .f32) (v17 v18 : FVec Ideal S1x24x24 .f32) (b : Fin 16) (m : Fin 24) :
    numV L v17 v18 (ix2 b m)
      = ∑ n : Fin 24, v18 (ix3 (0 : Fin 1) m n)
          * (L (ix3 b m n) - Ideal.log (∑ n' : Fin 24, Ideal.exp (L (ix3 b m n')) * v17 (ix3 (0 : Fin 1) m n'))) := by
  unfold numV
  refine (red3_last _ _ _ _ _ b m).trans ?_
  refine Finset.sum_congr rfl fun n _ => ?_
  refine (mulf_apply _ _ _).trans ?_
  refine congrArg₂ (· * ·) (bcast_1bc_abc _ _ b m n) ?_
  refine (subf_apply _ _ _).trans ?_
  refine congrArg (L (ix3 b m n) - ·) ?_
  exact (bcast_ab1_abc _ _ b m n).trans (logDenV_at L v17 b m 0)

/-- The floored counts of positive partners, `[16, 24]`. -/
private def cntV (v18 : FVec Ideal S1x24x24 .f32) : FVec Ideal S16x24 .f32 :=
  broadcastTo S16x24
    (addf (multiReduction .add [2] S1x24 v18 0x00000000#32 reduces_S1x24x24_S1x24 (.inl rfl) rfl)
      (broadcast S1x24 (Scalar.ofBits .f32 0x358637BD#32)))
    broadcasts_S1x24_S16x24

private theorem cntV_at (v18 : FVec Ideal S1x24x24 .f32) (b : Fin 16) (m : Fin 24) :
    cntV v18 (ix2 b m) = (∑ n : Fin 24, v18 (ix3 (0 : Fin 1) m n)) + epsPos := by
  unfold cntV
  refine (broadcastTo_1b_ab_apply _ _ b m).trans ?_
  refine (addf_apply _ _ _).trans ?_
  exact congrArg (· + epsPos) (red3_last _ _ _ _ _ (0 : Fin 1) m)

end Stages

/-- The body's per-sample value, read at sample `b` of a block of 16 samples: the sum over the 24 rows of the mean
    log-probability of the row's positive partners, the two 24 × 24 mask blocks read at their one leading index. -/
theorem pay3_apply (x0 : Vec Ideal S16x24x4096 .f32) (x1 x2 : Vec Ideal S1x24x24 .f32) (b : Fin 16) :
    k0_pay3 (F := Ideal) x0 x1 x2 (ix2 b (0 : Fin 1))
      = ∑ m : Fin 24, posMean (fun m n => x1 (ix3 (0 : Fin 1) m n)) (fun m n => x2 (ix3 (0 : Fin 1) m n))
          (fun m d => x0 (ix3 b m d)) m := by
  unfold k0_pay3
  rw [shapeCast_self x0]
  show shapeCast S16x1
      (multiReduction .add [1] S16 (divf (numV (logitV x0) x1 x2) (cntV x2)) 0x00000000#32 reduces_S16x24_S16 (.inl rfl) rfl)
      shapeCasts_S16_S16x1 (ix2 b (0 : Fin 1)) = _
  refine (cast_a_a1 _ _ b (0 : Fin 1)).trans ?_
  refine (red2_last _ _ _ _ _ b).trans ?_
  refine Finset.sum_congr rfl fun m _ => ?_
  refine (divf_apply _ _ _).trans ?_
  unfold posMean
  refine congrArg₂ Ideal.div ?_ (cntV_at x2 b m)
  refine (numV_at _ x1 x2 b m).trans ?_
  refine Finset.sum_congr rfl fun n _ => ?_
  unfold logProb denom
  simp only [logitV_at]

/-- What the body stores into the one-element accumulator: its previous value plus the block's 16 per-sample sums, each
    divided by the word `w` (the number of rows) and scaled by minus the temperature. -/
theorem pay1_apply (v36 : FVec Ideal S16x1 .f32) (w : Ideal .f32) (v43 : Vec Ideal S1x1 .f32) :
    k0_pay1 (F := Ideal) v36 w v43 (ix2 (0 : Fin 1) (0 : Fin 1))
      = v43 (ix2 (0 : Fin 1) (0 : Fin 1)) + ∑ b : Fin 16, negTemp * Ideal.div (v36 (ix2 b (0 : Fin 1))) w := by
  unfold k0_pay1
  refine (addf_apply _ _ _).trans ?_
  refine congrArg₂ (· + ·) ?_ ?_
  · exact congrFun (shapeCast_self v43 _) _
  · refine (shapeCast_a_1a_apply _ _ (0 : Fin 1) (0 : Fin 1)).trans ?_
    refine (red2_first _ _ _ _ _ (0 : Fin 1)).trans ?_
    exact Finset.sum_congr rfl fun b _ => rfl

/-- The reset value of the accumulator is zero. -/
theorem pay2_apply : k0_pay2 (F := Ideal) (ix2 (0 : Fin 1) (0 : Fin 1)) = 0 := by
  unfold k0_pay2
  exact Ideal.ofBits_zero_f32

end Cert.KernelIdeal.Pay

end
-- ==== Proof.KMasks.lean ====
import proofs.«161356_j89678917140919_1_alg».proof.Proof.Spec
import proofs.«161356_j89678917140919_1_alg».proof.KernelIdeal
import Idealize.ShloMosaic.Lib.ValueIdx

noncomputable section

namespace Cert.KernelIdeal.Masks

open Idealize.ShloMosaic Idealize.ShloMosaic.ValueIdx Cert.KernelIdeal Cert.Contrast

/-- Row-major position in a `1 × 24 × 24` array: entry `(0, m, n)` sits at `24 m + n`. -/
private theorem rowMajor_val (m n : Fin 24) :
    (S1x24x24.rowMajor (ix3 (0 : Fin 1) m n)).val = 24 * m.val + n.val := by
  rw [Shape.rowMajor_val_three]
  simp [ix3]
  omega

/-- The first table read at entry `(0, m, n)` is the underlying table over the naturals read at `24 m + n`. -/
private theorem lit0_at (m n : Fin 24) :
    lit0 (S1x24x24.rowMajor (ix3 (0 : Fin 1) m n)) = lit0t (24 * m.val + n.val) := by
  rw [← rowMajor_val m n]

/-- Likewise for the second table. -/
private theorem lit1_at (m n : Fin 24) :
    lit1 (S1x24x24.rowMajor (ix3 (0 : Fin 1) m n)) = lit1t (24 * m.val + n.val) := by
  rw [← rowMajor_val m n]

/-- All 576 words of the first table: the word of `0.0` on the diagonal, the word of `1.0` off it. -/
private theorem lit0t_word : ∀ m n : Fin 24,
    lit0t (24 * m.val + n.val) = if m = n then 0x00000000#32 else 0x3F800000#32 := by
  decide +kernel

/-- All 576 words of the second table: the word of `1.0` exactly where the two rows differ and their class indices
    (the row index modulo 12) are at most one apart, the word of `0.0` elsewhere. -/
private theorem lit1t_word : ∀ m n : Fin 24,
    lit1t (24 * m.val + n.val)
      = if m ≠ n ∧ m.val % 12 ≤ n.val % 12 + 1 ∧ n.val % 12 ≤ m.val % 12 + 1 then 0x3F800000#32 else 0x00000000#32 := by
  decide +kernel

/-- The f32 word `0x3F800000` (sign 0, biased exponent 127, mantissa 0) is the real number one. -/
private theorem ofBits_one_f32 : Ideal.ofBits .f32 0x3F800000#32 = 1 := by
  simp [Ideal.ofBits, Ideal.ieee, -EReal.coe_mul]; norm_num

/-- The first literal table is the self-exclusion mask: zero on the diagonal, one elsewhere. -/
theorem lit0_eq (m n : Fin 24) :
    Ideal.ofBits .f32 (lit0 (S1x24x24.rowMajor (ix3 (0 : Fin 1) m n))) = selfMask m n := by
  rw [lit0_at, lit0t_word]
  unfold selfMask
  split
  · exact Ideal.ofBits_zero_f32
  · exact ofBits_one_f32

/-- The second literal table is the positive-partner mask. -/
theorem lit1_eq (m n : Fin 24) :
    Ideal.ofBits .f32 (lit1 (S1x24x24.rowMajor (ix3 (0 : Fin 1) m n))) = posMask m n := by
  rw [lit1_at, lit1t_word]
  unfold posMask
  split
  · exact ofBits_one_f32
  · exact Ideal.ofBits_zero_f32

end Cert.KernelIdeal.Masks

end
-- ==== Proof.KBlocks.lean ====
import proofs.«161356_j89678917140919_1_alg».proof.Proof.Spec
import proofs.«161356_j89678917140919_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.ShloMosaic.ValueIdx Idealize.SL.Sem
open Cert.KernelIdeal Cert.KernelIdeal.Gen Cert.Contrast

variable (m : (ℓ : Loc nD τ sig) → Buf (Elt Ideal) ℓ)

/-- The grid has 32 points: a point as an index below 32. -/
abbrev pt (t : Fin cfg0.N) : Fin 32 := Fin.cast N_0 t

/-- The reshaped features array as the region finds it: the launched features array re-indexed. -/
private theorem V_v0 (c : Dev nD) : (V m c main_v0 : S512x24x4096.Idx → EReal)
    = shapeCast S512x24x4096 (m ((c : Thread nD τ).loc main_arg2)) shapeCasts_S512x2x12x4096_S512x24x4096 := by
  show StableHlo.after hostOps0 (fun b => m (c, b)) (Proc.devRef .tc main_v0) = _
  after_results
  rfl

/-- The first literal table as the region finds it. -/
private theorem V_cst (c : Dev nD) : (V m c main_cst : S1x24x24.Idx → EReal)
    = fun i => Ideal.ofBits .f32 (lit0 (S1x24x24.rowMajor i)) := by
  show StableHlo.after hostOps0 (fun b => m (c, b)) (Proc.devRef .tc main_cst) = _
  after_results
  rfl

/-- The second literal table as the region finds it. -/
private theorem V_cst0 (c : Dev nD) : (V m c main_cst_0 : S1x24x24.Idx → EReal)
    = fun i => Ideal.ofBits .f32 (lit1 (S1x24x24.rowMajor i)) := by
  show StableHlo.after hostOps0 (fun b => m (c, b)) (Proc.devRef .tc main_cst_0) = _
  after_results
  rfl

/-- The first window's block index at point `t` is `(t, 0, 0)`. -/
private theorem idx0 : ∀ t : Fin grid0.N,
    win0_0.index t (0 : Fin 3) = t.val ∧ win0_0.index t (1 : Fin 3) = 0 ∧ win0_0.index t (2 : Fin 3) = 0 := by
  decide +kernel

/-- The features block at grid point `t` holds samples `16 t … 16 t + 15`: its entry (i, r, d) is feature `d` of row `r` of
    sample `16 t + i` (the array the region reads is the features array with its view and class axes merged). -/
theorem feat_block (c : Dev nD) (t : Fin cfg0.N) (i : Fin 16) (r : Fin 24) (d : Fin 4096) :
    (iblk m c 0 t : Vec Ideal S16x24x4096 .f32) (ix3 i r d)
      = sampleRows (m ((c : Thread nD τ).loc main_arg2)) (groupRow (pt t) i) r d := by
  have hi := idx0 t
  unfold iblk
  rw [View.read_apply]
  show V m c main_v0 (((cfg0.win 0).blk t).view.emb (ix3 i r d)) = _
  -- the block's entry (i, r, d) sits in the array at (16 t + i, r, d)
  have he : ((cfg0.win 0).blk t).view.emb (ix3 i r d)
      = (ix3 (groupRow (pt t) i) r d : S512x24x4096.Idx) := by
    funext a
    apply Fin.ext
    match a with
    | ⟨0, _⟩ => show win0_0.index t 0 * 16 + 1 * i.val = 16 * t.val + i.val; rw [hi.1]; omega
    | ⟨1, _⟩ => show win0_0.index t 1 * 24 + 1 * r.val = r.val; rw [hi.2.1]; omega
    | ⟨2, _⟩ => show win0_0.index t 2 * 4096 + 1 * d.val = d.val; rw [hi.2.2]; omega
  rw [he, V_v0 m c]
  unfold sampleRows
  -- merging the view and class axes keeps the row-major position: (16 t + i, r / 12, r % 12, d) and (16 t + i, r, d)
  exact shapeCast_apply _ _ _ _ (by
    show (S512x2x12x4096.rowMajor _).val = (S512x24x4096.rowMajor _).val
    rw [Shape.rowMajor_val_four, Shape.rowMajor_val_three]
    show (((16 * t.val + i.val) * 2 + r.val / 12) * 12 + r.val % 12) * 4096 + d.val
      = ((16 * t.val + i.val) * 24 + r.val) * 4096 + d.val
    omega)

/-- The second and third windows' block index is `(0, 0, 0)` at every point. -/
private theorem idx1 : ∀ t : Fin grid0.N,
    win0_1.index t (0 : Fin 3) = 0 ∧ win0_1.index t (1 : Fin 3) = 0 ∧ win0_1.index t (2 : Fin 3) = 0 := by
  decide +kernel
private theorem idx2 : ∀ t : Fin grid0.N,
    win0_2.index t (0 : Fin 3) = 0 ∧ win0_2.index t (1 : Fin 3) = 0 ∧ win0_2.index t (2 : Fin 3) = 0 := by
  decide +kernel

/-- The second window's block, at every point, is the first literal table (the host writes it before the region; the
    window's index never moves). -/
theorem self_block (c : Dev nD) (t : Fin cfg0.N) (r n : Fin 24) :
    (iblk m c 1 t : Vec Ideal S1x24x24 .f32) (ix3 (0 : Fin 1) r n)
      = Ideal.ofBits .f32 (lit0 (S1x24x24.rowMajor (ix3 (0 : Fin 1) r n))) := by
  have hi := idx1 t
  unfold iblk
  rw [View.read_apply]
  show V m c main_cst (((cfg0.win 1).blk t).view.emb (ix3 (0 : Fin 1) r n)) = _
  -- the block is the whole table: entry (0, r, n) sits in the array at (0, r, n)
  have he : ((cfg0.win 1).blk t).view.emb (ix3 (0 : Fin 1) r n) = (ix3 (0 : Fin 1) r n : S1x24x24.Idx) := by
    funext a
    apply Fin.ext
    match a with
    | ⟨0, _⟩ => show win0_1.index t 0 * 1 + 1 * 0 = 0; rw [hi.1]
    | ⟨1, _⟩ => show win0_1.index t 1 * 24 + 1 * r.val = r.val; rw [hi.2.1]; omega
    | ⟨2, _⟩ => show win0_1.index t 2 * 24 + 1 * n.val = n.val; rw [hi.2.2]; omega
  rw [he, V_cst m c]

/-- The third window's block, at every point, is the second literal table. -/
theorem pos_block (c : Dev nD) (t : Fin cfg0.N) (r n : Fin 24) :
    (iblk m c 2 t : Vec Ideal S1x24x24 .f32) (ix3 (0 : Fin 1) r n)
      = Ideal.ofBits .f32 (lit1 (S1x24x24.rowMajor (ix3 (0 : Fin 1) r n))) := by
  have hi := idx2 t
  unfold iblk
  rw [View.read_apply]
  show V m c main_cst_0 (((cfg0.win 2).blk t).view.emb (ix3 (0 : Fin 1) r n)) = _
  have he : ((cfg0.win 2).blk t).view.emb (ix3 (0 : Fin 1) r n) = (ix3 (0 : Fin 1) r n : S1x24x24.Idx) := by
    funext a
    apply Fin.ext
    match a with
    | ⟨0, _⟩ => show win0_2.index t 0 * 1 + 1 * 0 = 0; rw [hi.1]
    | ⟨1, _⟩ => show win0_2.index t 1 * 24 + 1 * r.val = r.val; rw [hi.2.1]; omega
    | ⟨2, _⟩ => show win0_2.index t 2 * 24 + 1 * n.val = n.val; rw [hi.2.2]; omega
  rw [he, V_cst0 m c]

end Cert.KernelIdeal.Blocks

end
-- ==== Proof.KChain.lean ====
/-
  The accumulator across the grid.  At grid point `t` the kernel body adds to the one-element accumulator the contribution of
  samples `16 t … 16 t + 15`: for each, the sum over its 24 rows of the row's mean log-probability, divided by 24 and scaled
  by minus the temperature.  The accumulator is reset to zero at the first point, so after point `n` it holds the sum of the
  contributions of groups `0 … n`, and after the last point the sum over all 32 groups.
-/
import proofs.«161356_j89678917140919_1_alg».proof.Proof.Spec
import proofs.«161356_j89678917140919_1_alg».proof.Proof.KPieces
import proofs.«161356_j89678917140919_1_alg».proof.Proof.KPayload
import proofs.«161356_j89678917140919_1_alg».proof.Proof.KMasks
import proofs.«161356_j89678917140919_1_alg».proof.Proof.KBlocks
import proofs.«161356_j89678917140919_1_alg».proof.Proof.Gen.KernelIdeal.Frame

noncomputable section

namespace Cert.KernelIdeal.Chain

open Idealize.ShloMosaic Idealize.ShloMosaic.TcCoe Idealize.ShloMosaic.ValueIdx Idealize.SL.Sem
open Cert.KernelIdeal Cert.KernelIdeal.Gen Cert.Contrast
open Cert.KernelIdeal.Blocks (pt)

variable (m : (ℓ : Loc nD τ sig) → Buf (Elt Ideal) ℓ)

/-- The mean log-probability of row `r` of sample `b`, from the features array. -/
def rowVals (c : Dev nD) (b : Fin 512) (r : Fin 24) : EReal :=
  posMean selfMask posMask (sampleRows (m ((c : Thread nD τ).loc main_arg2)) b) r

/-- Group `t`'s contribution to the accumulator. -/
def groupSum (c : Dev nD) (t : Fin 32) : EReal :=
  ∑ i : Fin 16, negTemp * Ideal.div (∑ r, rowVals m c (groupRow t i) r) rowsWord

/-- The three input blocks at a point, by their literal types. -/
abbrev fblk (c : Dev nD) (t : Fin cfg0.N) : Vec Ideal S16x24x4096 .f32 := iblk m c 0 t
abbrev sblk (c : Dev nD) (t : Fin cfg0.N) : Vec Ideal S1x24x24 .f32 := iblk m c 1 t
abbrev pblk (c : Dev nD) (t : Fin cfg0.N) : Vec Ideal S1x24x24 .f32 := iblk m c 2 t

/-- The body's per-sample value at point `t`, sample `i` of the block: the sum over the rows of sample `16 t + i`. -/
theorem sample_sum (c : Dev nD) (t : Fin cfg0.N) (i : Fin 16) :
    k0_pay3 (F := Ideal) (fblk m c t) (sblk m c t) (pblk m c t) (ix2 i (0 : Fin 1))
      = ∑ r, rowVals m c (groupRow (pt t) i) r := by
  refine (Pay.pay3_apply (fblk m c t) (sblk m c t) (pblk m c t) i).trans ?_
  have e1 : (fun r n => sblk m c t (ix3 (0 : Fin 1) r n)) = selfMask := by
    funext r n; exact (Blocks.self_block m c t r n).trans (Masks.lit0_eq r n)
  have e2 : (fun r n => pblk m c t (ix3 (0 : Fin 1) r n)) = posMask := by
    funext r n; exact (Blocks.pos_block m c t r n).trans (Masks.lit1_eq r n)
  have e3 : (fun r d => fblk m c t (ix3 i r d)) = sampleRows (m ((c : Thread nD τ).loc main_arg2)) (groupRow (pt t) i) := by
    funext r d; exact Blocks.feat_block m c t i r d
  rw [e1, e2, e3]
  rfl

/-- What the body's last store holds at point `t` over previous contents `prev`: `prev` plus the group's contribution. -/
theorem stored (c : Dev nD) (t : Fin cfg0.N) (prev : Vec Ideal S1x1 .f32) :
    k0_pay1 (F := Ideal) (k0_pay3 (F := Ideal) (fblk m c t) (sblk m c t) (pblk m c t)) (Pieces.rowsW (F := Ideal)) prev
      = fun _ => prev (ix2 (0 : Fin 1) (0 : Fin 1)) + groupSum m c (pt t) := by
  funext j
  have h0 : j 0 = (0 : Fin 1) := Fin.ext (Nat.lt_one_iff.mp (idx2_lt0 (n0 := 1) (n1 := 1) j))
  have h1 : j 1 = (0 : Fin 1) := Fin.ext (Nat.lt_one_iff.mp (idx2_lt1 (n0 := 1) (n1 := 1) j))
  obtain rfl : j = ix2 (0 : Fin 1) (0 : Fin 1) := (eq_ix2 j).trans (by rw [h0, h1]; rfl)
  refine (Pay.pay1_apply _ _ prev).trans ?_
  unfold groupSum
  congr 1
  refine Finset.sum_congr rfl fun i _ => ?_
  rw [sample_sum m c t i]
  rfl

/-- The sum of the contributions of groups `0 … n`, in the order the kernel adds them, starting from the reset value. -/
def running (c : Dev nD) : (n : ℕ) → n < cfg0.N → EReal
  | 0, h => 0 + groupSum m c (pt ⟨0, h⟩)
  | n + 1, h => running c n (Nat.lt_of_succ_lt h) + groupSum m c (pt ⟨n + 1, h⟩)

/-- After point `n` the accumulator holds the running sum: by induction on the point, the first point through the reset
    case, every later one through the carrying case. -/
theorem outsAt_eq (c : Dev nD) : ∀ (n : ℕ) (h : n < cfg0.N), outsAt0 m c n h = fun _ => running m c n h
  | 0, h => by
    refine (outsAt0_A m c ⟨0, h⟩ rfl).trans ?_
    refine (Pieces.out_first c _ _ _ _ _ _ _ _ _ _ (fblk m c ⟨0, h⟩) (sblk m c ⟨0, h⟩) (pblk m c ⟨0, h⟩)).trans ?_
    refine (stored m c ⟨0, h⟩ (k0_pay2 (F := Ideal))).trans ?_
    funext _
    rw [Pay.pay2_apply]
    rfl
  | n + 1, h => by
    have hN : cfg0.N = 32 := N_0
    have hB : ¬(⟨n + 1, h⟩ : Fin cfg0.N).val % 32 = 0 := by dsimp only; omega
    rw [outsAt0_B m c ⟨n + 1, h⟩ hB]
    refine (Pieces.out_later c _ _ _ _ _ _ _ _ _ _ (fblk m c ⟨n + 1, h⟩) (sblk m c ⟨n + 1, h⟩) (pblk m c ⟨n + 1, h⟩) _).trans ?_
    refine (stored m c ⟨n + 1, h⟩ _).trans ?_
    funext _
    show outsAt0 m c n _ (ix2 (0 : Fin 1) (0 : Fin 1)) + _ = running m c n _ + _
    rw [outsAt_eq c n]

/-- A group's contribution by its number, zero past the grid. -/
def contrib (c : Dev nD) (t : ℕ) : EReal := if h : t < 32 then groupSum m c ⟨t, h⟩ else 0

/-- The running sum is the sum of the first `n + 1` contributions: addition of extended reals is associative and `0` is
    its unit. -/
theorem running_eq (c : Dev nD) : ∀ (n : ℕ) (h : n < cfg0.N), running m c n h = ∑ t ∈ Finset.range (n + 1), contrib m c t
  | 0, h => by
    simp only [running, Finset.sum_range_one, zero_add, contrib]
    rw [dif_pos (by decide : 0 < 32)]
    rfl
  | n + 1, h => by
    have hN : cfg0.N = 32 := N_0
    have h32 : n + 1 < 32 := by omega
    rw [Finset.sum_range_succ, ← running_eq c n (Nat.lt_of_succ_lt h)]
    simp only [running, contrib]
    rw [dif_pos h32]
    rfl

/-- After the last point the accumulator holds the sum over all 32 groups. -/
theorem last_total (c : Dev nD) (h : 31 < cfg0.N) : running m c 31 h = ∑ t : Fin 32, groupSum m c t := by
  rw [running_eq m c 31 h, ← Fin.sum_univ_eq_sum_range (fun t => contrib m c t) 32]
  refine Finset.sum_congr rfl fun t _ => ?_
  simp only [contrib]
  rw [dif_pos t.isLt]

/-- So the word for 1/512 times the last accumulator is the grouped form of the batch loss. -/
theorem grouped (c : Dev nD) (h : 31 < cfg0.N) :
    Ideal.ofBits .f32 0x3B000000#32 * running m c 31 h = groupedLoss (rowVals m c) := by
  rw [last_total]
  rfl

end Cert.KernelIdeal.Chain

end
-- ==== Proof.KFinal.lean ====
import proofs.«161356_j89678917140919_1_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The last of the 32 grid points. -/
theorem last_lt : 31 < cfg0.N := by rw [show cfg0.N = 32 from N_0]; decide

/-- The one write-back, at the last point, writes the accumulator: block (0, 0) of the one-element array read through zero
    offsets is the array. -/
private theorem flushed_eq (acc : Dev nD → EReal)
    (hacc : ∀ c, outsAt0 m c 31 last_lt = fun _ => acc c) (c : Dev nD) (t : Fin cfg0.N)
    (hf : (cfg0.win 3).flush t = true) :
    (dats m 0 c).flushed 3 t = ((cfg0.win 3).blk t).view.read (Elt Ideal) (fun _ => acc c) := by
  have hN : cfg0.N = 32 := N_0
  have h31 : t.val = 31 := by have := (flush0_3 t).mp hf; have := t.isLt; omega
  obtain rfl : t = ⟨31, last_lt⟩ := Fin.ext h31
  show (cfg0.win 3).cut (grid0.coords ⟨31, last_lt⟩) ((dats m 0 c).after 3 ⟨31, last_lt⟩) = _
  rw [after0_3]
  show (cfg0.win 3).cut (grid0.coords ⟨31, last_lt⟩) (outsAt0 m c 31 last_lt) = _
  rw [hacc c]
  have hz' : (fun a => win0_3.index ⟨31, last_lt⟩ a * main_v1.ty.shape.size a) = fun _ => 0 :=
    funext fun a => by fin_cases a <;> decide +kernel
  exact (Memref.read_access_unit_zero (Elt Ideal) main_v1 hz' (fun a => by rw [congrFun hz' a]; simp) (fun _ => acc c)).symm

/-- So the accumulator's array ends holding the accumulator after the last point: that point's block covers it. -/
private theorem final (acc : Dev nD → EReal)
    (hacc : ∀ c, outsAt0 m c 31 last_lt = fun _ => acc c) (c : Dev nD) :
    (dats m 0 c).arrAt 3 cfg0.N = fun _ => acc c :=
  (dats m 0 c).arrAt_eq_of_cover 3 (fun _ => acc c) (flushed_eq m acc hacc c) fun i =>
    ⟨⟨31, last_lt⟩, (flush0_3 _).mpr rfl, by
      show i ∈ ((View.whole main_v1).slice (win0_3.rect ⟨31, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index ⟨31, last_lt⟩ 0 * win0_3.size 0 ≤ (i 0 : Nat)
          ∧ (i 0 : Nat) < win0_3.index ⟨31, last_lt⟩ 0 * win0_3.size 0 + win0_3.xsize (grid0.coords ⟨31, last_lt⟩) 0
        rw [show win0_3.index ⟨31, last_lt⟩ 0 * win0_3.size 0 = 0 from by decide +kernel,
          show win0_3.xsize (grid0.coords ⟨31, last_lt⟩) 0 = 1 from by decide +kernel]
        omega
      | ⟨1, _⟩ =>
        show win0_3.index ⟨31, last_lt⟩ 1 * win0_3.size 1 ≤ (i 1 : Nat)
          ∧ (i 1 : Nat) < win0_3.index ⟨31, last_lt⟩ 1 * win0_3.size 1 + win0_3.xsize (grid0.coords ⟨31, last_lt⟩) 1
        rw [show win0_3.index ⟨31, last_lt⟩ 1 * win0_3.size 1 = 0 from by decide +kernel,
          show win0_3.xsize (grid0.coords ⟨31, last_lt⟩) 1 = 1 from by decide +kernel]
        omega⟩

/-- The run, read at the result: if after the last grid point the one-element accumulator holds `acc c`, the accumulator's
    array is written back once, after that point, and holds it; the host then reads it as a scalar and multiplies it by the
    word for 1/512; the three argument arrays end unchanged. -/
theorem run_of (acc : Dev nD → EReal)
    (hacc : ∀ c, outsAt0 m c 31 last_lt = fun _ => acc c) :
    θ_run defs (onTc (τ := τ) (main (F := Ideal))) ⟨m, fun _ => 0, ρ⟩ fun r => ∀ c : Dev nD,
      r.2.mem ((c.tc : Thread nD τ).loc main_v3) = (fun _ => Ideal.ofBits .f32 0x3B000000#32 * acc c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (run_main m ρ)
  · -- the result buffer: the host's three operations after the region, applied to the accumulator's array
    refine ((h c).2 main_v3 (Pipeline.mem_restRefs_of main_v3 (by decide) (by decide))).trans ?_
    unfold Pipeline.afterTail₀
    show StableHlo.after hostOps1 _ (Proc.devRef .tc main_v3) = _
    after_results
    have hv1 : Pipeline.withArrays (cfgs 0).spec c (V0 m c) (fun w => (dats m 0 c).arrAt w (cfgs 0).N)
        (Proc.tc.devRef main_v1) = fun _ => acc c :=
      (Pipeline.withArrays_arr spec0 launch0.win.arr_inj c _ _ 3).trans (final m acc hacc c)
    rw [hv1]
    funext i
    rfl
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.KernelIdeal.Final

end
-- ==== Proof.RefValue.lean ====
import proofs.«161356_j89678917140919_1_alg».proof.Proof.Spec
import proofs.«161356_j89678917140919_1_alg».proof.Proof.Gen.ReferenceIdeal.Run
import proofs.«161356_j89678917140919_1_alg».proof.Proof.Gen.ReferenceIdeal.Read
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.Contrast

/-- The features array viewed as 512 × 24 × 4096: row `m` of sample `b` is view `m / 12`, class `m % 12`. -/
private theorem v0_at (x2 : (⟨S512x2x12x4096, .f32⟩ : BufTy).Contents (Elt Ideal)) (b : Fin 512) (m : Fin 24) (d : Fin 4096) :
    val_main_v0 (F := Ideal) x2 (ix3 b m d) = sampleRows x2 b m d := by
  rw [val_main_v0_apply]
  unfold sampleRows
  congr 1
  have hb := b.isLt
  have hm := m.isLt
  have hd := d.isLt
  funext a
  match a with
  | ⟨0, _⟩ => exact Fin.ext (by show ((b.val * 24 + m.val) * 4096 + d.val) / 98304 = b.val; omega)
  | ⟨1, _⟩ => exact Fin.ext (by show ((b.val * 24 + m.val) * 4096 + d.val) / 49152 % 2 = m.val / 12; omega)
  | ⟨2, _⟩ => exact Fin.ext (by show ((b.val * 24 + m.val) * 4096 + d.val) / 4096 % 12 = m.val % 12; omega)
  | ⟨3, _⟩ => exact Fin.ext (by show ((b.val * 24 + m.val) * 4096 + d.val) % 4096 = d.val; omega)

/-- The floored norm of a row (the sum of squares starts from zero; `max` is symmetric). -/
private theorem v2_at (x2 : (⟨S512x2x12x4096, .f32⟩ : BufTy).Contents (Elt Ideal)) (b : Fin 512) (m : Fin 24) (z : Fin 1) :
    val_main_v2 (F := Ideal) x2 (ix3 b m z) = rowNorm (sampleRows x2 b) m := by
  rw [val_main_v2_apply, val_main_call1_v1_apply, val_main_call1_v0_apply, val_main_cst_apply, val_main_v1_apply,
    val_main_call0_v2_apply, val_main_call0_v1_apply, val_main_call0_cst_apply]
  simp only [Ideal.maximumf_def, Ideal.hostUnary_sqrt_def, Ideal.ofBits_def, Ideal.ofBits_zero_f32, zero_add]
  unfold rowNorm
  rw [max_comm]
  refine congrArg (fun s => max (Ideal.sqrt s) epsNorm) (Finset.sum_congr rfl fun k _ => ?_)
  rw [val_main_call0_v0_apply, Ideal.mulf_def]
  have e : idx_main_call0_v1 (idx_main_call0_v2 (ix3 b m z)) k = ix3 b m k := by
    funext a
    match a with
    | ⟨0, _⟩ => rfl
    | ⟨1, _⟩ => rfl
    | ⟨2, _⟩ => rfl
  rw [e, v0_at]

/-- A row divided by its floored norm. -/
private theorem v4_at (x2 : (⟨S512x2x12x4096, .f32⟩ : BufTy).Contents (Elt Ideal)) (b : Fin 512) (m : Fin 24) (d : Fin 4096) :
    val_main_v4 (F := Ideal) x2 (ix3 b m d) = unitRow (sampleRows x2 b) m d := by
  rw [val_main_v4_apply, val_main_v3_apply, Ideal.hostDivf_def, v0_at]
  have e : idx_main_v3 (ix3 b m d) = ix3 b m (0 : Fin 1) := by
    funext a
    match a with
    | ⟨0, _⟩ => rfl
    | ⟨1, _⟩ => rfl
    | ⟨2, _⟩ => rfl
  rw [e, v2_at]
  rfl

/-- The temperature word is the real 13421773 / 134217728. -/
private theorem tempWord : Ideal.ofBits .f32 0x3DCCCCCD#32 = ((13421773 / 134217728 : ℝ) : EReal) := by
  simp [Ideal.ofBits, Ideal.ieee, -EReal.coe_mul]; norm_num

/-- The inner product of two unit rows divided by the temperature is its product with the inverse temperature. -/
private theorem v7_at (x2 : (⟨S512x2x12x4096, .f32⟩ : BufTy).Contents (Elt Ideal)) (b : Fin 512) (m n : Fin 24) :
    val_main_v7 (F := Ideal) x2 (ix3 b m n) = logit (sampleRows x2 b) m n := by
  rw [val_main_v7_apply, val_main_v6_apply, val_main_cst_0_apply, val_main_v5_apply, Ideal.hostDivf_def, Ideal.ofBits_def,
    tempWord, Ideal.div_coe (by norm_num)]
  unfold logit invTemp
  have hr : ((1 / (13421773 / 134217728 : ℝ) : ℝ) : EReal) = ((134217728 / 13421773 : ℝ) : EReal) := by
    congr 1; norm_num
  rw [hr]
  refine congrArg (· * ((134217728 / 13421773 : ℝ) : EReal)) (Finset.sum_congr rfl fun k _ => ?_)
  have el : lidx_main_v5 (ix3 b m n) k = ix3 b m k := by
    funext a
    match a with
    | ⟨0, _⟩ => rfl
    | ⟨1, _⟩ => rfl
    | ⟨2, _⟩ => rfl
  have er : ridx_main_v5 (ix3 b m n) k = ix3 b n k := by
    funext a
    match a with
    | ⟨0, _⟩ => rfl
    | ⟨1, _⟩ => rfl
    | ⟨2, _⟩ => rfl
  rw [el, er, v4_at, v4_at]

/-- Two row indices below 24 are equal as 32-bit words exactly when they are equal. -/
private theorem eqBit : ∀ m n : Fin 24,
    IntOp.cmpi .eq (IntOp.addi (BitVec.ofNat 32 m.val) 0#32) (BitVec.ofNat 32 n.val) = if m = n then 1#1 else 0#1 := by
  decide +kernel

/-- For class indices below 12, the word `|p - q| ≤ 1` (signed) says each is at most one above the other. -/
private theorem bandBit : ∀ p q : Fin 12,
    IntOp.cmpi .sle (IntOp.absi (IntOp.subi (BitVec.ofNat 32 p.val) (BitVec.ofNat 32 q.val))) 1#32
      = if p.val ≤ q.val + 1 ∧ q.val ≤ p.val + 1 then 1#1 else 0#1 := by
  decide +kernel

/-- The word for one. -/
private theorem oneWord : Ideal.ofBits .f32 0x3F800000#32 = 1 := by
  simp [Ideal.ofBits, Ideal.ieee, -EReal.coe_mul]; norm_num

/-- A decided bit read as a number is 1 or 0. -/
private theorem uitofp_bit (c : Prop) [Decidable c] :
    FloatOps.uitofp (F := Ideal) .f32 (if c then 1#1 else 0#1) = if c then 1 else 0 := by
  split
  · show (((1#1 : BitVec 1).toNat : ℝ) : EReal) = 1
    simp
  · show (((0#1 : BitVec 1).toNat : ℝ) : EReal) = 0
    simp

/-- `1 - 1 = 0` over the extended reals (both are real). -/
private theorem one_sub_one : (1 : EReal) - 1 = 0 := by
  rw [← EReal.coe_one, ← EReal.coe_sub, sub_self, EReal.coe_zero]

/-- One minus the indicator of the diagonal is the self-exclusion mask. -/
private theorem v15_at (m n : Fin 24) : val_main_v15 (F := Ideal) (ix2 m n) = selfMask m n := by
  rw [val_main_v15_apply, val_main_v14_apply, val_main_cst_1_apply, val_main_v13_apply, val_main_v12_apply, val_main_v11_apply,
    val_main_v8_apply, val_main_v9_apply, val_main_v10_apply, val_main_c_apply]
  show FloatOps.subf (FloatOps.ofBits .f32 0x3F800000#32)
      (FloatOps.uitofp (F := Ideal) .f32 (IntOp.cmpi .eq (IntOp.addi (BitVec.ofNat 32 m.val) 0#32) (BitVec.ofNat 32 n.val))) = _
  rw [eqBit, uitofp_bit, Ideal.subf_def, Ideal.ofBits_def, oneWord]
  unfold selfMask
  by_cases h : m = n
  · rw [if_pos h, if_pos h, one_sub_one]
  · rw [if_neg h, if_neg h, sub_zero]

/-- The band table read at a pair of rows: the class indices are the row indices modulo 12. -/
private theorem v28_at (m n : Fin 24) :
    val_main_v28 (F := Ideal) (ix2 m n) = if m.val % 12 ≤ n.val % 12 + 1 ∧ n.val % 12 ≤ m.val % 12 + 1 then 1 else 0 := by
  have hm := m.isLt
  have hn := n.isLt
  rw [val_main_v28_apply, val_main_v27_apply, val_main_v26_apply, val_main_v25_apply, val_main_v24_apply, val_main_v22_apply,
    val_main_v21_apply, val_main_v19_apply, val_main_v17_apply, val_main_v16_apply, val_main_v20_apply, val_main_v18_apply,
    val_main_v16_apply, val_main_v23_apply, val_main_c_2_apply]
  have e : idx_main_v26 (idx_main_v27 (idx_main_v28 (ix2 m n)))
      = ix2 (⟨m.val % 12, Nat.mod_lt _ (by decide)⟩ : Fin 12) (⟨n.val % 12, Nat.mod_lt _ (by decide)⟩ : Fin 12) := by
    funext a
    match a with
    | ⟨0, _⟩ => exact Fin.ext (by
        show (((0 * 12 + (m.val * 24 + n.val) / 24 % 12) * 1 + 0) * 12 + (m.val * 24 + n.val) % 12) / 12 = m.val % 12
        omega)
    | ⟨1, _⟩ => exact Fin.ext (by
        show (((0 * 12 + (m.val * 24 + n.val) / 24 % 12) * 1 + 0) * 12 + (m.val * 24 + n.val) % 12) % 12 = n.val % 12
        omega)
  rw [e]
  show FloatOps.uitofp (F := Ideal) .f32 (IntOp.cmpi .sle (IntOp.absi (IntOp.subi (BitVec.ofNat 32 (m.val % 12)) (BitVec.ofNat 32 (n.val % 12)))) 1#32) = _
  exact (congrArg (FloatOps.uitofp (F := Ideal) .f32)
    (bandBit ⟨m.val % 12, Nat.mod_lt _ (by decide)⟩ ⟨n.val % 12, Nat.mod_lt _ (by decide)⟩)).trans (uitofp_bit _)

/-- The band table times the self-exclusion mask is the positive-partner mask. -/
private theorem v29_at (m n : Fin 24) : val_main_v29 (F := Ideal) (ix2 m n) = posMask m n := by
  rw [val_main_v29_apply, v28_at, v15_at, Ideal.mulf_def]
  unfold posMask selfMask
  by_cases h : m = n
  · subst h
    simp
  · by_cases hb : m.val % 12 ≤ n.val % 12 + 1 ∧ n.val % 12 ≤ m.val % 12 + 1
    · rw [if_pos hb, if_neg h, if_pos ⟨h, hb⟩, mul_one]
    · rw [if_neg hb, if_neg h, if_neg (fun hc => hb hc.2), zero_mul]

/-- The masked sum of exponentials of a row's logits (summed from zero). -/
private theorem v34_at (x2 : (⟨S512x2x12x4096, .f32⟩ : BufTy).Contents (Elt Ideal)) (b : Fin 512) (m : Fin 24) :
    val_main_v34 (F := Ideal) x2 (ix2 b m) = denom selfMask (sampleRows x2 b) m := by
  rw [val_main_v34_apply, val_main_cst_3_apply, Ideal.ofBits_def, Ideal.ofBits_zero_f32, zero_add]
  unfold denom
  refine Finset.sum_congr rfl fun k _ => ?_
  have e : idx_main_v34 (ix2 b m) k = ix3 b m k := by
    funext a
    match a with
    | ⟨0, _⟩ => rfl
    | ⟨1, _⟩ => rfl
    | ⟨2, _⟩ => rfl
  have e' : idx_main_v31 (idx_main_v32 (ix3 b m k)) = ix2 m k := by
    funext a
    match a with
    | ⟨0, _⟩ => rfl
    | ⟨1, _⟩ => rfl
  rw [e, val_main_v33_apply, val_main_v30_apply, val_main_v32_apply, val_main_v31_apply, e', v15_at, v7_at,
    Ideal.mulf_def, Ideal.hostUnary_exp_def]

/-- A logit minus the logarithm of its row's masked sum of exponentials. -/
private theorem v38_at (x2 : (⟨S512x2x12x4096, .f32⟩ : BufTy).Contents (Elt Ideal)) (b : Fin 512) (m n : Fin 24) :
    val_main_v38 (F := Ideal) x2 (ix3 b m n) = logProb selfMask (sampleRows x2 b) m n := by
  have e : idx_main_v35 (idx_main_v37 (ix3 b m n)) = ix2 b m := by
    funext a
    match a with
    | ⟨0, _⟩ => rfl
    | ⟨1, _⟩ => rfl
  rw [val_main_v38_apply, val_main_v37_apply, val_main_v36_apply, val_main_v35_apply, e, v34_at, v7_at,
    Ideal.subf_def, Ideal.hostUnary_log_def]
  rfl

/-- The sum of a row's log-probabilities over its positive partners (summed from zero). -/
private theorem v42_at (x2 : (⟨S512x2x12x4096, .f32⟩ : BufTy).Contents (Elt Ideal)) (b : Fin 512) (m : Fin 24) :
    val_main_v42 (F := Ideal) x2 (ix2 b m) = ∑ n, posMask m n * logProb selfMask (sampleRows x2 b) m n := by
  rw [val_main_v42_apply, val_main_cst_4_apply, Ideal.ofBits_def, Ideal.ofBits_zero_f32, zero_add]
  refine Finset.sum_congr rfl fun k _ => ?_
  have e : idx_main_v42 (ix2 b m) k = ix3 b m k := by
    funext a
    match a with
    | ⟨0, _⟩ => rfl
    | ⟨1, _⟩ => rfl
    | ⟨2, _⟩ => rfl
  have e' : idx_main_v39 (idx_main_v40 (ix3 b m k)) = ix2 m k := by
    funext a
    match a with
    | ⟨0, _⟩ => rfl
    | ⟨1, _⟩ => rfl
  rw [e, val_main_v41_apply, val_main_v40_apply, val_main_v39_apply, e', v29_at, v38_at, Ideal.mulf_def]

/-- The floored count of a row's positive partners. -/
private theorem v47_at (b : Fin 512) (m : Fin 24) :
    val_main_v47 (F := Ideal) (ix2 b m) = (∑ n, posMask m n) + epsPos := by
  have e : idx_main_v46 (idx_main_v47 (ix2 b m)) = ix1 m := by
    funext a
    match a with
    | ⟨0, _⟩ => rfl
  rw [val_main_v47_apply, val_main_v46_apply, e, val_main_v45_apply, val_main_v44_apply, val_main_cst_6_apply,
    val_main_v43_apply, val_main_cst_5_apply, Ideal.addf_def, Ideal.ofBits_def, Ideal.ofBits_def, Ideal.ofBits_zero_f32, zero_add]
  refine congrArg (· + epsPos) (Finset.sum_congr rfl fun k _ => ?_)
  have e2 : idx_main_v43 (ix1 m) k = ix2 m k := by
    funext a
    match a with
    | ⟨0, _⟩ => rfl
    | ⟨1, _⟩ => rfl
  rw [e2, v29_at]

/-- The mean log-probability of a row's positive partners. -/
private theorem v48_at (x2 : (⟨S512x2x12x4096, .f32⟩ : BufTy).Contents (Elt Ideal)) (b : Fin 512) (m : Fin 24) :
    val_main_v48 (F := Ideal) x2 (ix2 b m) = posMean selfMask posMask (sampleRows x2 b) m := by
  rw [val_main_v48_apply, v42_at, v47_at, Ideal.hostDivf_def]
  rfl

/-- A rank-one index set is its coordinate's range. -/
private def idxEquiv1 {n : Nat} : (⟨1, ![n]⟩ : Shape).Idx ≃ Fin n where
  toFun j := j 0
  invFun := ix1
  left_inv j := (eq_ix1 j).symm
  right_inv _ := rfl

/-- A sum over a rank-one index set is the sum over its coordinate. -/
private theorem sum_idx1 {n : Nat} (f : (⟨1, ![n]⟩ : Shape).Idx → EReal) : ∑ j, f j = ∑ a : Fin n, f (ix1 a) := by
  rw [← Equiv.sum_comp (idxEquiv1 (n := n)).symm f]
  rfl

/-- A sample's loss: its rows scaled by minus the temperature, summed from zero, divided by the number of rows. -/
private theorem v53_at (x2 : (⟨S512x2x12x4096, .f32⟩ : BufTy).Contents (Elt Ideal)) (b : Fin 512) :
    val_main_v53 (F := Ideal) x2 (ix1 b)
      = Ideal.div (Ideal.ofBits .f32 0x00000000#32 + ∑ m, negTemp * posMean selfMask posMask (sampleRows x2 b) m) rowsWord := by
  rw [val_main_v53_apply, val_main_v52_apply, val_main_cst_9_apply, val_main_v51_apply, val_main_cst_8_apply, Ideal.hostDivf_def]
  simp only [Ideal.ofBits_def]
  refine congrArg (fun s => Ideal.div (Ideal.ofBits .f32 0x00000000#32 + s) rowsWord) (Finset.sum_congr rfl fun k _ => ?_)
  have e : idx_main_v51 (ix1 b) k = ix2 b k := by
    funext a
    match a with
    | ⟨0, _⟩ => rfl
    | ⟨1, _⟩ => rfl
  rw [e, val_main_v50_apply, val_main_v49_apply, val_main_cst_7_apply, v48_at, Ideal.mulf_def, Ideal.ofBits_def]

/-- The reference's result, as a function of the features array, is the flat form of the batch loss over the per-row mean
    log-probabilities of each sample's 24 rows (the masks the reference computes from index arithmetic are the
    self-exclusion and positive-partner masks; its quotient by the temperature word is the product with the inverse
    temperature; its `max` has the floor on the left). -/
theorem result_eq (x2 : (⟨S512x2x12x4096, .f32⟩ : BufTy).Contents (Elt Ideal)) :
    val_main_v56 (F := Ideal) x2 = fun _ => flatLoss (fun b m => posMean selfMask posMask (sampleRows x2 b) m) := by
  funext i
  rw [val_main_v56_apply, val_main_cst_12_apply, val_main_v55_apply, val_main_cst_11_apply, val_main_v54_apply,
    val_main_cst_10_apply, Ideal.hostDivf_def, Ideal.mulf_def, sum_idx1]
  simp only [Ideal.ofBits_def, v53_at]
  rfl

end Cert.ReferenceIdeal.RefValue

end
-- ==== Proof.lean ====
/-
  The two programs compute one number: a contrastive loss over 512 samples of 24 unit-normalised feature rows each.

  Per sample the 24 × 24 table of cosines over the temperature is turned, row by row, into log-probabilities against the
  other rows, and each row's log-probabilities are averaged over its positive partners (rows whose class indices differ by
  at most one).  The kernel streams the samples in 32 groups of 16, adding each group's contribution into a one-element
  accumulator that it resets at the first group, and the host scales the accumulator by 1/512; the reference forms every
  row's value at once, scales it by minus the temperature, averages over the 24 rows and then over the 512 samples.

  The kernel multiplies the cosines by a constant that the certificate's table names as the exact reciprocal of the
  temperature word by which the reference divides, so the two tables of logits are one function of the features
  (`preserves` states that naming).  What remains is where the constant factors stand and how the samples are grouped:
  with every row's value a real number — which it is when the features are finite — the grouped and the flat form of the
  loss agree.
-/
import proofs.«161356_j89678917140919_1_alg».proof.Defs
import proofs.«161356_j89678917140919_1_alg».proof.Proof.Gen.Kernel
import proofs.«161356_j89678917140919_1_alg».proof.Proof.Gen.Kernel.Skeleton
import proofs.«161356_j89678917140919_1_alg».proof.Proof.Gen.Kernel.Launch
import proofs.«161356_j89678917140919_1_alg».proof.Proof.Gen.Kernel.Points
import proofs.«161356_j89678917140919_1_alg».proof.Proof.Gen.Kernel.Frame
import proofs.«161356_j89678917140919_1_alg».proof.Proof.Gen.KernelIdeal
import proofs.«161356_j89678917140919_1_alg».proof.Proof.Gen.KernelIdeal.Skeleton
import proofs.«161356_j89678917140919_1_alg».proof.Proof.Gen.KernelIdeal.Launch
import proofs.«161356_j89678917140919_1_alg».proof.Proof.Gen.KernelIdeal.Points
import proofs.«161356_j89678917140919_1_alg».proof.Proof.Gen.KernelIdeal.Frame
import proofs.«161356_j89678917140919_1_alg».proof.Proof.Gen.ReferenceIdeal
import proofs.«161356_j89678917140919_1_alg».proof.Proof.Gen.ReferenceIdeal.Run
import proofs.«161356_j89678917140919_1_alg».proof.Proof.Gen.ReferenceIdeal.Read
import proofs.«161356_j89678917140919_1_alg».proof.Proof.Gen.Pre_finite_inputs
import proofs.«161356_j89678917140919_1_alg».proof.Proof.SpecReal
import proofs.«161356_j89678917140919_1_alg».proof.Proof.SpecLaw
import proofs.«161356_j89678917140919_1_alg».proof.Proof.Finite
import proofs.«161356_j89678917140919_1_alg».proof.Proof.KChain
import proofs.«161356_j89678917140919_1_alg».proof.Proof.KFinal
import proofs.«161356_j89678917140919_1_alg».proof.Proof.RefValue
import Idealize.ShloMosaic.Adequacy
import Idealize.ShloMosaic.Init

noncomputable section

namespace Cert.Proof

open Idealize.ShloMosaic Idealize.SL.Sem Cert.Contrast

/-- The word-level kernel runs, faults nowhere, and leaves its arguments as they were. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- And the reference: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The one named constant: the table gives the inverse temperature the reciprocal of the temperature word. -/
theorem preserves : Cert.preserves_Kernel_KernelIdeal :=
  IdealRules.named_const.statement Cert.KernelIdeal.κ "inv_temperature" .f32 0x41200000#32
    ((134217728 / 13421773 : ℝ) : EReal) rfl

/-- Both runs end at the flat form of the loss over the per-row values of the features: the kernel's at the grouped form,
    which is the flat form because every row's value is real on finite features; the reference's by its own operations
    read one at a time. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c _ => flatLoss (Cert.KernelIdeal.Chain.rowVals m c), ?_, ?_⟩
  · refine (θ_run Cert.KernelIdeal.defs _ _).mono (fun _ h c => ⟨(h c).1.trans ?_, (h c).2⟩)
      (Cert.KernelIdeal.Final.run_of m ρ (fun c => Cert.KernelIdeal.Chain.running m c 31 Cert.KernelIdeal.Final.last_lt)
        (fun c => Cert.KernelIdeal.Chain.outsAt_eq m c 31 Cert.KernelIdeal.Final.last_lt))
    funext _
    rw [Cert.KernelIdeal.Chain.grouped]
    exact loss_eq _ fun b r => posMean_real selfMask posMask _ selfMask_cases selfMask_has_one posMask_cases
      (fun r d => Cert.Finite.features_real m hpre c _) r
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v56_eq, (hagree c).2.2, Cert.ReferenceIdeal.RefValue.result_eq]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
